-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S2x2048 : Shape := ⟨2, ![2, 2048]⟩
abbrev S32767x1024 : Shape := ⟨2, ![32767, 1024]⟩
abbrev S32768x16 : Shape := ⟨2, ![32768, 16]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S32767x1024 : S_.BroadcastsInDim S32767x1024 (![] : Fin 0 → Fin S32767x1024.rank)
  reducesTo_S32767x1024_S_d0_1 : S32767x1024.ReducesTo [0, 1] S_
  bcast_S_S32768x16 : S_.BroadcastsInDim S32768x16 (![] : Fin 0 → Fin S32768x16.rank)
  reducesTo_S32768x16_S_d0_1 : S32768x16.ReducesTo [0, 1] S_

variable [Facts]

def fn_part1 {F : FTy → Type} [FloatOps F] (main_arg3 : IVec S32768x16 32) (main_v13 : IVec S_ 1) (main_v16 : IVec S32768x16 1) : IVec S_ 1 :=
  let main_c_5 : IVec S_ 1 := constantI S_ 1 1#1
  let main_v17 : IVec S_ 1 := (fun x v => Host.reduce IntOp.andi x v reducesTo_S32768x16_S_d0_1 h_S_) main_v16 main_c_5
  let main_v18 : IVec S_ 1 := andi main_v13 main_v17
  let main_c_6 : IVec S_ 32 := constantI S_ 32 32766#32
  let main_v19 : IVec S32768x16 32 := broadcastInDim S32768x16 ![] bcast_S_S32768x16 main_c_6
  let main_v20 : IVec S32768x16 1 := cmpi .sle main_arg3 main_v19
  let main_c_7 : IVec S_ 1 := constantI S_ 1 1#1
  let main_v21 : IVec S_ 1 := (fun x v => Host.reduce IntOp.andi x v reducesTo_S32768x16_S_d0_1 h_S_) main_v20 main_c_7
  let main_v22 : IVec S_ 1 := andi main_v18 main_v21
  main_v22

def fn {F : FTy → Type} [FloatOps F] (main_arg0 : FVec F S2x2048x1024 .f32) (main_arg1 : IVec S2x2048 32) (main_arg2 : FVec F S32767x1024 .f32) (main_arg3 : IVec S32768x16 32) (main_arg4 : FVec F S32768x16 .f32) (main_arg5 : FVec F S32768x16 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S32767x1024 .f32 := Host.absf main_arg2
  let main_cst_0 : FVec F S_ .f32 := constant S_ .f32 0x7F800000#32
  let main_v5 : FVec F S32767x1024 .f32 := broadcastInDim S32767x1024 ![] bcast_S_S32767x1024 main_cst_0
  let main_v6 : IVec S32767x1024 1 := cmpf .olt main_v4 main_v5
  let main_c_1 : IVec S_ 1 := constantI S_ 1 1#1
  let main_v7 : IVec S_ 1 := (fun x v => Host.reduce IntOp.andi x v reducesTo_S32767x1024_S_d0_1 h_S_) main_v6 main_c_1
  let main_v8 : IVec S_ 1 := andi main_v3 main_v7
  let main_v9 : FVec F S32768x16 .f32 := Host.absf main_arg4
  let main_cst_2 : FVec F S_ .f32 := constant S_ .f32 0x7F800000#32
  let main_v10 : FVec F S32768x16 .f32 := broadcastInDim S32768x16 ![] bcast_S_S32768x16 main_cst_2
  let main_v11 : IVec S32768x16 1 := cmpf .olt main_v9 main_v10
  let main_c_3 : IVec S_ 1 := constantI S_ 1 1#1
  let main_v12 : IVec S_ 1 := (fun x v => Host.reduce IntOp.andi x v reducesTo_S32768x16_S_d0_1 h_S_) main_v11 main_c_3
  let main_v13 : IVec S_ 1 := andi main_v8 main_v12
  let main_v14 : FVec F S32768x16 .f32 := Host.absf main_arg5
  let main_cst_4 : FVec F S_ .f32 := constant S_ .f32 0x7F800000#32
  let main_v15 : FVec F S32768x16 .f32 := broadcastInDim S32768x16 ![] bcast_S_S32768x16 main_cst_4
  let main_v16 : IVec S32768x16 1 := cmpf .olt main_v14 main_v15
  fn_part1 (F := F) main_arg3 main_v13 main_v16
-- ==== Kernel.lean ====
abbrev S2x2048x1024 : Shape := ⟨3, ![2, 2048, 1024]⟩
abbrev S2x2048 : Shape := ⟨2, ![2, 2048]⟩
abbrev S32767x1024 : Shape := ⟨2, ![32767, 1024]⟩
abbrev S32768x16 : Shape := ⟨2, ![32768, 16]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S4096x16 : Shape := ⟨2, ![4096, 16]⟩
abbrev S32768x1024 : Shape := ⟨2, ![32768, 1024]⟩
abbrev S512x1024 : Shape := ⟨2, ![512, 1024]⟩
abbrev S1024x1024 : Shape := ⟨2, ![1024, 1024]⟩
abbrev S512x16 : Shape := ⟨2, ![512, 16]⟩
abbrev S1x1024 : Shape := ⟨2, ![1, 1024]⟩
abbrev S512x1 : Shape := ⟨2, ![512, 1]⟩
abbrev S512 : Shape := ⟨1, ![512]⟩

abbrev nBuf : Space → Nat
  | .hbm => 73
  | .vmem => 8
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S32767x1024, .f32⟩
  | .hbm, ⟨3, _⟩ => ⟨S32768x16, .i32⟩
  | .hbm, ⟨4, _⟩ => ⟨S32768x16, .f32⟩
  | .hbm, ⟨5, _⟩ => ⟨S32768x16, .f32⟩
  | .hbm, ⟨6, _⟩ => ⟨S4096x1024, .f32⟩
  | .hbm, ⟨7, _⟩ => ⟨S4096x1024, .bf16⟩
  | .hbm, ⟨8, _⟩ => ⟨S4096, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x16, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x16, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x16, .f32⟩
  | .hbm, ⟨44, _⟩ => ⟨S_, .i32⟩
  | .hbm, ⟨45, _⟩ => ⟨S_, .i32⟩
  | .hbm, ⟨46, _⟩ => ⟨S4096x16, .i32⟩
  | .hbm, ⟨47, _⟩ => ⟨S4096x16, .i32⟩
  | .hbm, ⟨48, _⟩ => ⟨S_, .i32⟩
  | .hbm, ⟨49, _⟩ => ⟨S_, .f32⟩
  | .hbm, ⟨50, _⟩ => ⟨S32768x1024, .f32⟩
  | .hbm, ⟨51, _⟩ => ⟨S32768x1024, .bf16⟩
  | .hbm, ⟨52, _⟩ => ⟨S4096x16, .f32⟩
  | .hbm, ⟨53, _⟩ => ⟨S_, .f32⟩
  | .hbm, ⟨54, _⟩ => ⟨S4096x16, .f32⟩
  | .hbm, ⟨55, _⟩ => ⟨S4096x16, .f32⟩
  | .hbm, ⟨56, _⟩ => ⟨S4096x16, .f32⟩
  | .hbm, ⟨57, _⟩ => ⟨S4096x16, .f32⟩
  | .hbm, ⟨58, _⟩ => ⟨S4096x16, .f32⟩
  | .hbm, ⟨59, _⟩ => ⟨S4096x16, .f32⟩
  | .hbm, ⟨60, _⟩ => ⟨S4096x16, .f32⟩
  | .hbm, ⟨61, _⟩ => ⟨S4096x16, .f32⟩
  | .hbm, ⟨62, _⟩ => ⟨S4096x16, .f32⟩
  | .hbm, ⟨63, _⟩ => ⟨S4096x16, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .i1⟩
  | .hbm, ⟨70, _⟩ => ⟨S_, .f32⟩
  | .hbm, ⟨71, _⟩ => ⟨S_, .f32⟩
  | .hbm, ⟨72, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x16, .i32⟩
  | .local _ .vmem, ⟨5, _⟩ => ⟨S512x16, .i32⟩
  | .local _ .vmem, ⟨6, _⟩ => ⟨S512x16, .f32⟩
  | .local _ .vmem, ⟨7, _⟩ => ⟨S512x16, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v3 : Ref sig .tc := ⟨.hbm, 16, rfl⟩
abbrev main_c_1 : Ref sig .tc := ⟨.hbm, 17, rfl⟩
abbrev main_v4 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_3 : Ref sig .tc := ⟨.hbm, 26, rfl⟩
abbrev main_v11 : Ref sig .tc := ⟨.hbm, 27, rfl⟩
abbrev main_v12 : Ref sig .tc := ⟨.hbm, 28, rfl⟩
abbrev main_c_4 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_7 : Ref sig .tc := ⟨.hbm, 44, rfl⟩
abbrev main_call1_v0 : Ref sig .tc := ⟨.hbm, 45, rfl⟩
abbrev main_call1_v1 : Ref sig .tc := ⟨.hbm, 46, rfl⟩
abbrev main_v25 : Ref sig .tc := ⟨.hbm, 47, rfl⟩
abbrev main_c_8 : Ref sig .tc := ⟨.hbm, 48, rfl⟩
abbrev main_call2_v0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_9 : Ref sig .tc := ⟨.hbm, 64, rfl⟩
abbrev main_v39 : Ref sig .tc := ⟨.hbm, 65, rfl⟩
abbrev main_cst_10 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_cst_12 : Ref sig .tc := ⟨.hbm, 71, rfl⟩
abbrev main_v43 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S2x2048x1024_S4096x1024 : S2x2048x1024.ShapeCasts S4096x1024
  bitsLt_bf16_f32 : FTy.bits .bf16 < FTy.bits .f32
  shapeCasts_S2x2048_S4096 : S2x2048.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x16 : S_.BroadcastsInDim S4096x16 (![] : Fin 0 → Fin S4096x16.rank)
  pads_S32767x1024_S32768x1024_010_000 : S32767x1024.Pads (![0, 0] : Fin 2 → Nat) ![1, 0] ![0, 0] S32768x1024
  h_S_ : 0 < S_.numel
  inb_S512x16_S512x16_0_0 : ∀ a, (![0, 0] : Fin 2 → Nat) a + S512x16.size a ≤ S512x16.size a
  h_S512x16 : 0 < S512x16.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x16_S512x16 : S512x16.ShapeCasts S512x16
  iota_S1x1024_d1_w32 : S1x1024.Iotas .tc 32 [1]
  slices_S512x16_o0_0_S512x1 : S512x16.Slices ![0, 0] S512x1
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  slices_S512x16_o0_1_S512x1 : S512x16.Slices ![0, 1] S512x1
  slices_S512x16_o0_2_S512x1 : S512x16.Slices ![0, 2] S512x1
  slices_S512x16_o0_3_S512x1 : S512x16.Slices ![0, 3] S512x1
  slices_S512x16_o0_4_S512x1 : S512x16.Slices ![0, 4] S512x1
  slices_S512x16_o0_5_S512x1 : S512x16.Slices ![0, 5] S512x1
  slices_S512x16_o0_6_S512x1 : S512x16.Slices ![0, 6] S512x1
  slices_S512x16_o0_7_S512x1 : S512x16.Slices ![0, 7] S512x1
  slices_S512x16_o0_8_S512x1 : S512x16.Slices ![0, 8] S512x1
  slices_S512x16_o0_9_S512x1 : S512x16.Slices ![0, 9] S512x1
  slices_S512x16_o0_10_S512x1 : S512x16.Slices ![0, 10] S512x1
  slices_S512x16_o0_11_S512x1 : S512x16.Slices ![0, 11] S512x1
  slices_S512x16_o0_12_S512x1 : S512x16.Slices ![0, 12] S512x1
  slices_S512x16_o0_13_S512x1 : S512x16.Slices ![0, 13] S512x1
  slices_S512x16_o0_14_S512x1 : S512x16.Slices ![0, 14] S512x1
  slices_S512x16_o0_15_S512x1 : S512x16.Slices ![0, 15] S512x1
  concatenates_S512x1_S512x1_S512x1_S512x1_S512x1_S512x1_S512x1_S512x1_S512x1_S512x1_S512x1_S512x1_S512x1_S512x1_S512x1_S512x1_S512x16_d1 : Shape.Concatenates [S512x1, S512x1, S512x1, S512x1, S512x1, S512x1, S512x1, S512x1, S512x1, S512x1, S512x1, S512x1, S512x1, S512x1, S512x1, S512x1] S512x16 1
  reducesTo_S4096x16_S_d0_1 : S4096x16.ReducesTo [0, 1] S_
  gather_S32768x16_S4096x1_S4096x16_1_0_n_n_0_1_116_wf : GatherDims.WF S32768x16 S4096x1 S4096x16 [1] [0] [] [0] [] 1 ![1, 16]
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .bf16 = 32 ∨ (Rect.block (s := S32768x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x16.size a ≤ S4096x16.size a
  hwx0_2 : ∀ i : grid0.Coords, EltTy.bits .i32 = 32 ∨ (Rect.block (s := S4096x16) S512x16.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .f32 = 32 ∨ (Rect.block (s := S4096x16) S512x16.size (cc0_transform_3 i) (hinb0_3 i)).WholeWords (EltTy.packing .f32)

variable [Facts₀]

def gather_S32768x16_S4096x1_S4096x16_1_0_n_n_0_1_116 : GatherDims S32768x16 S4096x1 S4096x16 where
  offsetDims := [1]
  collapsedSliceDims := [0]
  operandBatchingDims := []
  startIndicesBatchingDims := []
  startIndexMap := [0]
  indexVectorDim := 1
  sliceSizes := ![1, 16]
  wf := gather_S32768x16_S4096x1_S4096x16_1_0_n_n_0_1_116_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S512x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x1024 : Shape := ⟨3, ![2, 2048, 1024]⟩
abbrev S2x2048 : Shape := ⟨2, ![2, 2048]⟩
abbrev S32767x1024 : Shape := ⟨2, ![32767, 1024]⟩
abbrev S32768x16 : Shape := ⟨2, ![32768, 16]⟩
abbrev S4096x1024 : Shape := ⟨2, ![4096, 1024]⟩
abbrev S4096 : Shape := ⟨1, ![4096]⟩
abbrev S_ : Shape := ⟨0, ![]⟩
abbrev S4096x1 : Shape := ⟨2, ![4096, 1]⟩
abbrev S4096x16 : Shape := ⟨2, ![4096, 16]⟩
abbrev S1024x32767 : Shape := ⟨2, ![1024, 32767]⟩
abbrev S4096x32767 : Shape := ⟨2, ![4096, 32767]⟩
abbrev S4096x16x1 : Shape := ⟨3, ![4096, 16, 1]⟩
abbrev S1 : Shape := ⟨1, ![1]⟩
abbrev S1x1x1 : Shape := ⟨3, ![1, 1, 1]⟩

abbrev nBuf : Space → Nat
  | .hbm => 91
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048, .i32⟩
  | .hbm, ⟨2, _⟩ => ⟨S32767x1024, .f32⟩
  | .hbm, ⟨3, _⟩ => ⟨S32768x16, .i32⟩
  | .hbm, ⟨4, _⟩ => ⟨S32768x16, .f32⟩
  | .hbm, ⟨5, _⟩ => ⟨S32768x16, .f32⟩
  | .hbm, ⟨6, _⟩ => ⟨S4096x1024, .f32⟩
  | .hbm, ⟨7, _⟩ => ⟨S4096, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S4096x16, .i32⟩
  | .hbm, ⟨25, _⟩ => ⟨S_, .i32⟩
  | .hbm, ⟨26, _⟩ => ⟨S4096, .i32⟩
  | .hbm, ⟨27, _⟩ => ⟨S4096, .i1⟩
  | .hbm, ⟨28, _⟩ => ⟨S_, .i32⟩
  | .hbm, ⟨29, _⟩ => ⟨S4096, .i32⟩
  | .hbm, ⟨30, _⟩ => ⟨S4096, .i32⟩
  | .hbm, ⟨31, _⟩ => ⟨S4096, .i32⟩
  | .hbm, ⟨32, _⟩ => ⟨S4096x1, .i32⟩
  | .hbm, ⟨33, _⟩ => ⟨S4096x16, .f32⟩
  | .hbm, ⟨34, _⟩ => ⟨S_, .i32⟩
  | .hbm, ⟨35, _⟩ => ⟨S4096, .i32⟩
  | .hbm, ⟨36, _⟩ => ⟨S4096, .i1⟩
  | .hbm, ⟨37, _⟩ => ⟨S_, .i32⟩
  | .hbm, ⟨38, _⟩ => ⟨S4096, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x16, .f32⟩
  | .hbm, ⟨43, _⟩ => ⟨S1024x32767, .f32⟩
  | .hbm, ⟨44, _⟩ => ⟨S4096x32767, .f32⟩
  | .hbm, ⟨45, _⟩ => ⟨S_, .i32⟩
  | .hbm, ⟨46, _⟩ => ⟨S_, .i32⟩
  | .hbm, ⟨47, _⟩ => ⟨S4096x16, .i32⟩
  | .hbm, ⟨48, _⟩ => ⟨S4096x16, .i32⟩
  | .hbm, ⟨49, _⟩ => ⟨S_, .i32⟩
  | .hbm, ⟨50, _⟩ => ⟨S4096x16, .i32⟩
  | .hbm, ⟨51, _⟩ => ⟨S4096x16, .i1⟩
  | .hbm, ⟨52, _⟩ => ⟨S_, .i32⟩
  | .hbm, ⟨53, _⟩ => ⟨S4096x16, .i32⟩
  | .hbm, ⟨54, _⟩ => ⟨S4096x16, .i32⟩
  | .hbm, ⟨55, _⟩ => ⟨S4096x16, .i32⟩
  | .hbm, ⟨56, _⟩ => ⟨S4096x16x1, .i32⟩
  | .hbm, ⟨57, _⟩ => ⟨S1, .i32⟩
  | .hbm, ⟨58, _⟩ => ⟨S_, .i32⟩
  | .hbm, ⟨59, _⟩ => ⟨S4096x16x1, .i32⟩
  | .hbm, ⟨60, _⟩ => ⟨S4096x16x1, .i1⟩
  | .hbm, ⟨61, _⟩ => ⟨S1x1x1, .i32⟩
  | .hbm, ⟨62, _⟩ => ⟨S4096x16x1, .i32⟩
  | .hbm, ⟨63, _⟩ => ⟨S4096x16x1, .i1⟩
  | .hbm, ⟨64, _⟩ => ⟨S4096x16x1, .i1⟩
  | .hbm, ⟨65, _⟩ => ⟨S_, .i1⟩
  | .hbm, ⟨66, _⟩ => ⟨S4096x16, .i1⟩
  | .hbm, ⟨67, _⟩ => ⟨S4096x16, .f32⟩
  | .hbm, ⟨68, _⟩ => ⟨S_, .f32⟩
  | .hbm, ⟨69, _⟩ => ⟨S4096x16, .f32⟩
  | .hbm, ⟨70, _⟩ => ⟨S4096x16, .f32⟩
  | .hbm, ⟨71, _⟩ => ⟨S_, .f32⟩
  | .hbm, ⟨72, _⟩ => ⟨S4096x16, .f32⟩
  | .hbm, ⟨73, _⟩ => ⟨S4096x16, .f32⟩
  | .hbm, ⟨74, _⟩ => ⟨S4096x16, .f32⟩
  | .hbm, ⟨75, _⟩ => ⟨S4096x16, .f32⟩
  | .hbm, ⟨76, _⟩ => ⟨S4096x16, .f32⟩
  | .hbm, ⟨77, _⟩ => ⟨S4096x16, .f32⟩
  | .hbm, ⟨78, _⟩ => ⟨S4096x16, .f32⟩
  | .hbm, ⟨79, _⟩ => ⟨S4096x16, .f32⟩
  | .hbm, ⟨80, _⟩ => ⟨S4096x16, .f32⟩
  | .hbm, ⟨81, _⟩ => ⟨S4096x16, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S_, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v2 : Ref sig .tc := ⟨.hbm, 15, rfl⟩
abbrev main_c_1 : Ref sig .tc := ⟨.hbm, 16, rfl⟩
abbrev main_v3 : Ref sig .tc := ⟨.hbm, 17, rfl⟩
abbrev main_v4 : Ref sig .tc := ⟨.hbm, 18, rfl⟩
abbrev main_c_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_c_5 : Ref sig .tc := ⟨.hbm, 34, rfl⟩
abbrev main_v17 : Ref sig .tc := ⟨.hbm, 35, rfl⟩
abbrev main_v18 : Ref sig .tc := ⟨.hbm, 36, rfl⟩
abbrev main_c_6 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_7 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_call2_c : Ref sig .tc := ⟨.hbm, 49, rfl⟩
abbrev main_call2_v0 : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_c_1 : Ref sig .tc := ⟨.hbm, 57, rfl⟩
abbrev main_call2_c_2 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_3 : Ref sig .tc := ⟨.hbm, 65, rfl⟩
abbrev main_call2_v12 : Ref sig .tc := ⟨.hbm, 66, rfl⟩
abbrev main_call2_v13 : Ref sig .tc := ⟨.hbm, 67, rfl⟩
abbrev main_call2_cst : Ref sig .tc := ⟨.hbm, 68, rfl⟩
abbrev main_call2_v14 : Ref sig .tc := ⟨.hbm, 69, rfl⟩
abbrev main_v27 : Ref sig .tc := ⟨.hbm, 70, rfl⟩
abbrev main_cst : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_cst_8 : Ref sig .tc := ⟨.hbm, 82, rfl⟩
abbrev main_v38 : Ref sig .tc := ⟨.hbm, 83, rfl⟩
abbrev main_cst_9 : Ref sig .tc := ⟨.hbm, 84, rfl⟩
abbrev main_v39 : Ref sig .tc := ⟨.hbm, 85, rfl⟩
abbrev main_cst_10 : Ref sig .tc := ⟨.hbm, 86, rfl⟩
abbrev main_v40 : Ref sig .tc := ⟨.hbm, 87, rfl⟩
abbrev main_v41 : Ref sig .tc := ⟨.hbm, 88, rfl⟩
abbrev main_cst_11 : Ref sig .tc := ⟨.hbm, 89, rfl⟩
abbrev main_v42 : Ref sig .tc := ⟨.hbm, 90, rfl⟩

abbrev nD : Nat := 1
abbrev τ : Topo := Topo.v7x

variable {F : FTy → Type} [FloatOps F]

class Facts₀ : Prop where
  shapeCasts_S2x2048x1024_S4096x1024 : S2x2048x1024.ShapeCasts S4096x1024
  shapeCasts_S2x2048_S4096 : S2x2048.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  transposes_S32767x1024_S1024x32767_1_0 : S32767x1024.Transposes [1, 0] S1024x32767
  bcast_S_S4096x16 : S_.BroadcastsInDim S4096x16 (![] : Fin 0 → Fin S4096x16.rank)
  shapeCasts_S4096x16_S4096x16x1 : S4096x16.ShapeCasts S4096x16x1
  bcast_S_S4096x16x1 : S_.BroadcastsInDim S4096x16x1 (![] : Fin 0 → Fin S4096x16x1.rank)
  bcast_S1_S1x1x1_2 : S1.BroadcastsInDim S1x1x1 (![2] : Fin 1 → Fin S1x1x1.rank)
  bcast_S1x1x1_S4096x16x1_0_1_2 : S1x1x1.BroadcastsInDim S4096x16x1 (![0, 1, 2] : Fin 3 → Fin S4096x16x1.rank)
  reducesTo_S4096x16x1_S4096x16_d2 : S4096x16x1.ReducesTo [2] S4096x16
  h_S_ : 0 < S_.numel
  reducesTo_S4096x16_S_d0_1 : S4096x16.ReducesTo [0, 1] S_
  gather_S32768x16_S4096x1_S4096x16_1_0_n_n_0_1_116_wf : GatherDims.WF S32768x16 S4096x1 S4096x16 [1] [0] [] [0] [] 1 ![1, 16]
  dot_S4096x1024_S1024x32767_S4096x32767_1_0_0_1_n_n_wf : DotDims.WF S4096x1024 S1024x32767 S4096x32767 [1] [0] [0] [1] [] []
  gather_S4096x32767_S4096x16x1_S4096x16_n_1_0_0_1_2_11_wf : GatherDims.WF S4096x32767 S4096x16x1 S4096x16 [] [1] [0] [1] [0] 2 ![1, 1]

variable [Facts₀]

def gather_S32768x16_S4096x1_S4096x16_1_0_n_n_0_1_116 : GatherDims S32768x16 S4096x1 S4096x16 where
  offsetDims := [1]
  collapsedSliceDims := [0]
  operandBatchingDims := []
  startIndicesBatchingDims := []
  startIndexMap := [0]
  indexVectorDim := 1
  sliceSizes := ![1, 16]
  wf := gather_S32768x16_S4096x1_S4096x16_1_0_n_n_0_1_116_wf
def dot_S4096x1024_S1024x32767_S4096x32767_1_0_0_1_n_n : DotDims S4096x1024 S1024x32767 S4096x32767 where
  lhsContracting := [1]
  rhsContracting := [0]
  lhsNonContracting := [0]
  rhsNonContracting := [1]
  lhsBatch := []
  rhsBatch := []
  wf := dot_S4096x1024_S1024x32767_S4096x32767_1_0_0_1_n_n_wf
def gather_S4096x32767_S4096x16x1_S4096x16_n_1_0_0_1_2_11 : GatherDims S4096x32767 S4096x16x1 S4096x16 where
  offsetDims := []
  collapsedSliceDims := [1]
  operandBatchingDims := [0]
  startIndicesBatchingDims := [0]
  startIndexMap := [1]
  indexVectorDim := 2
  sliceSizes := ![1, 1]
  wf := gather_S4096x32767_S4096x16x1_S4096x16_n_1_0_0_1_2_11_wf

class Facts : Prop extends Facts₀ where

variable [Facts]
-- ==== Proof.Cols.lean ====
/-
  One grid point's contribution to the path logits. For a row tile of 512 tokens and a column tile of 1024 tree
  nodes the body forms the tile of logits (hidden rows against node-weight rows, contracted over the 1024 hidden
  features), and for each of the 16 path slots keeps, per token, the logit of the node whose number the slot names:
  a lane sum of the logits masked by "slot's node number = this lane's node number". The sixteen column vectors are
  laid side by side. At an index (token r, slot l) this is a sum over the tile's 1024 lanes of a one-hot selection.
-/
import proofs.«422814_j32298154066259_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.ValueIdx

namespace Cert.KernelIdeal.Hsm

open Cert.KernelIdeal Cert.KernelIdeal.Gen

variable {F : FTy → Type} [FloatOps F]

/-- The sixteen masked lane sums of one grid point, side by side: column l holds, per token, the sum over the tile's
    lanes of the logit where slot l's node number is the lane's, and zero elsewhere. -/
def cols (i : grid0.Coords) (x0 : Vec F S512x1024 .bf16) (x1 : Vec F S1024x1024 .bf16) (x2 : Vec F S512x16 .i32) :
    FVec F S512x16 .f32 :=
  k0_pay2 (k0_pay8 i x0 x1 x2) (k0_pay9 i x0 x1 x2) (k0_pay10 i x0 x1 x2)
    (k0_pay13 (k0_pay5 x0 x1) (k0_pay11 x2) (k0_pay12 i)) (k0_pay14 (k0_pay5 x0 x1) (k0_pay6 x2) (k0_pay7 i))
    (k0_pay15 (k0_pay5 x0 x1) (k0_pay6 x2) (k0_pay7 i)) (k0_pay16 (k0_pay5 x0 x1) (k0_pay6 x2) (k0_pay7 i))
    (k0_pay17 (k0_pay5 x0 x1) (k0_pay6 x2) (k0_pay7 i)) (k0_pay18 (k0_pay5 x0 x1) (k0_pay6 x2) (k0_pay7 i))
    (k0_pay21 (k0_pay5 x0 x1) (k0_pay19 (k0_pay6 x2)) (k0_pay20 (k0_pay7 i)))
    (k0_pay22 (k0_pay5 x0 x1) (k0_pay6 x2) (k0_pay7 i)) (k0_pay23 (k0_pay5 x0 x1) (k0_pay6 x2) (k0_pay7 i))
    (k0_pay24 (k0_pay5 x0 x1) (k0_pay6 x2) (k0_pay7 i)) (k0_pay25 (k0_pay5 x0 x1) (k0_pay6 x2) (k0_pay7 i))
    (k0_pay26 (k0_pay5 x0 x1) (k0_pay6 x2) (k0_pay7 i))
    (k0_pay1 (k0_pay5 x0 x1) (k0_pay27 (k0_pay6 x2)) (k0_pay28 (k0_pay7 i)))

/-! ## One masked lane sum, over any logits and any two word tiles -/

/-- The index of the [512,1024] tile that the sum over axis 1 reads at row r, lane n, is (r, n). -/
theorem lift_ix (hR : S512x1024.Reduces [1] S512) (r : Fin 512) (n : Fin 1024) :
    hR.lift (ix1 r) n = ix2 r n := by
  funext a
  match a with
  | ⟨0, _⟩ => exact Fin.ext rfl
  | ⟨1, _⟩ => exact Fin.ext rfl

/-- A select on the word of an equality test chooses by the equality itself. -/
theorem select_cmpi_eq {α : Type} (a b : BitVec 32) (u v : α) :
    Scalar.select (IntOp.cmpi .eq a b) u v = if a = b then u else v := by
  unfold Scalar.select
  exact if_congr IntOp.cmpi_eq rfl rfl

/-- A column: the sum along the lanes of the logits kept where two word tiles agree and replaced by zero elsewhere,
    stored as a [512,1] block. At row r it is the sum over the lanes n of "L (r, n) if A (r, n) = B (r, n), else 0". -/
theorem col_apply (L : FVec Ideal S512x1024 .f32) (A B : IVec S512x1024 32)
    (hR : S512x1024.Reduces [1] S512) (hφ : FKind.Formats .f32)
    (hacc : (0x00000000#32 : BitVec 32) = FKind.add.neutral .f32 hφ)
    (hC : S512.ShapeCasts S512x1) (r : Fin 512) :
    shapeCast S512x1 (multiReduction (F := Ideal) .add [1] S512
        (select (cmpi .eq A B) L (broadcast S512x1024 (Scalar.ofBits .f32 0x00000000#32))) 0x00000000#32 hR hφ hacc) hC
        (ix2 r (0 : Fin 1))
      = ∑ n : Fin 1024, if A (ix2 r n) = B (ix2 r n) then L (ix2 r n) else 0 := by
  refine (shapeCast_apply _ hC (ix2 r (0 : Fin 1)) (ix1 r) ?_).trans ?_
  · rw [Shape.rowMajor_val_one, Shape.rowMajor_val_two]
    show r.val = r.val * 1 + 0
    omega
  · refine (Ideal.multiReduction_add_single _ _ hR hφ hacc (ix1 r)).trans ?_
    show (∑ n : Fin 1024, _) = _
    refine Finset.sum_congr rfl fun (n : Fin 1024) _ => ?_
    rw [lift_ix, select_apply, broadcast_apply]
    refine (select_cmpi_eq _ _ _ _).trans ?_
    exact congrArg (fun z => if A (ix2 r n) = B (ix2 r n) then L (ix2 r n) else z) Ideal.ofBits_zero_f32

/-! ## The three tiles of this kernel -/

/-- Slot c's node numbers, spread along the lanes: at (r, n) the block's word at (r, c). -/
theorem slot_apply (v9 : IVec S512x16 32) (c : Nat) (hc : c < 16) (hS : S512x16.Slices ![0, c] S512x1)
    (hB : S512x1.Broadcasts S512x1024) (r : Fin 512) (n : Fin 1024) :
    broadcastTo S512x1024 (extractStridedSlice S512x1 ![0, c] v9 hS) hB (ix2 r n) = v9 (ix2 r ⟨c, hc⟩) := by
  refine (broadcastTo_apply _ hB (ix2 r n) (ix2 r (0 : Fin 1)) fun a => ?_).trans ?_
  · match a with
    | ⟨0, _⟩ => rfl
    | ⟨1, _⟩ => rfl
  · refine extractStridedSlice_apply _ v9 hS (ix2 r (0 : Fin 1)) (ix2 r ⟨c, hc⟩) fun a => ?_
    match a with
    | ⟨0, _⟩ => show r.val = 0 + r.val; omega
    | ⟨1, _⟩ => show c = c + 0; omega

/-- The lanes' global node numbers, spread along the rows: at (r, n) the word of "column tile times 1024, plus n". -/
theorem lane_apply (i : grid0.Coords) (hB : S1x1024.Broadcasts S512x1024) (r : Fin 512) (n : Fin 1024) :
    broadcastTo S512x1024 (k0_pay7 i) hB (ix2 r n) = BitVec.ofNat 32 ((i 1).val * 1024 + n.val) := by
  refine (broadcastTo_1b_ab_apply (k0_pay7 i) hB r n).trans ?_
  unfold k0_pay7
  show BitVec.ofNat 32 (i 1).val * 1024#32 + iota .tc S1x1024 32 [1] iota_S1x1024_d1_w32 (ix2 (0 : Fin 1) n) = _
  rw [iota_single_apply, BitVec.ofNat_add, BitVec.ofNat_mul]

/-- The loaded slot block is read as it is. -/
theorem pay6_apply (x2 : Vec Ideal S512x16 .i32) (j : S512x16.Idx) : k0_pay6 (F := Ideal) x2 j = x2 j := by
  unfold k0_pay6
  exact congrFun (shapeCast_self (x2 : IVec S512x16 32) shapeCasts_S512x16_S512x16) j

/-! ## The tile of logits: both operands keep axis 0 and contract axis 1 -/

/-- The left operand's index at output index j and contraction position q: row (j 0), column q. -/
theorem lhs_dot_0 (j : S512x1024.Idx) (q : dot_S512x1024_S1024x1024_S512x1024_1_1_0_0_n_n.contr.Idx) :
    (dot_S512x1024_S1024x1024_S512x1024_1_1_0_0_n_n.lhsIdx j q 0).val = (j 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem lhs_dot_1 (j : S512x1024.Idx) (q : dot_S512x1024_S1024x1024_S512x1024_1_1_0_0_n_n.contr.Idx) :
    (dot_S512x1024_S1024x1024_S512x1024_1_1_0_0_n_n.lhsIdx j q 1).val = (q ⟨0, by decide⟩).val :=
  dot_S512x1024_S1024x1024_S512x1024_1_1_0_0_n_n.lhsIdx_val_of_single rfl j q
/-- The right operand's index at output index j and contraction position q: row (j 1), column q. -/
theorem rhs_dot_0 (j : S512x1024.Idx) (q : dot_S512x1024_S1024x1024_S512x1024_1_1_0_0_n_n.contr.Idx) :
    (dot_S512x1024_S1024x1024_S512x1024_1_1_0_0_n_n.rhsIdx j q 0).val = (j 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl
theorem rhs_dot_1 (j : S512x1024.Idx) (q : dot_S512x1024_S1024x1024_S512x1024_1_1_0_0_n_n.contr.Idx) :
    (dot_S512x1024_S1024x1024_S512x1024_1_1_0_0_n_n.rhsIdx j q 1).val = (q ⟨0, by decide⟩).val :=
  dot_S512x1024_S1024x1024_S512x1024_1_1_0_0_n_n.rhsIdx_val_of_single rfl j q

/-- The logit at (token r, node row n): hidden row r against weight row n, summed over the 1024 features. -/
theorem logits_apply (x0 : Vec Ideal S512x1024 .bf16) (x1 : Vec Ideal S1024x1024 .bf16) (r : Fin 512) (n : Fin 1024) :
    k0_pay5 (F := Ideal) x0 x1 (ix2 r n) = ∑ k : Fin 1024, x0 (ix2 r k) * x1 (ix2 n k) := by
  unfold k0_pay5
  show matmul dot_S512x1024_S1024x1024_S512x1024_1_1_0_0_n_n none
    (shapeCast S512x1024 (x0 : FVec Ideal S512x1024 .bf16) shapeCasts_S512x1024_S512x1024 : FVec Ideal S512x1024 .bf16)
    (shapeCast S1024x1024 (x1 : FVec Ideal S1024x1024 .bf16) shapeCasts_S1024x1024_S1024x1024 : FVec Ideal S1024x1024 .bf16)
    (constant S512x1024 .f32 0x00000000#32) (ix2 r n) = _
  rw [shapeCast_self, shapeCast_self]
  refine (Ideal.matmul_constant_zero_apply (φ₁ := .bf16) (φ₂ := .bf16) dot_S512x1024_S1024x1024_S512x1024_1_1_0_0_n_n none x0 x1 (ix2 r n)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r n) ((contrEquiv1 dot_S512x1024_S1024x1024_S512x1024_1_1_0_0_n_n 1024 rfl rfl).symm k) = ix2 r k :=
    funext fun a => Fin.ext (by
      match a with
      | ⟨0, _⟩ => exact lhs_dot_0 _ _
      | ⟨1, _⟩ => exact (lhs_dot_1 _ _).trans hk)
  have er : dot_S512x1024_S1024x1024_S512x1024_1_1_0_0_n_n.rhsIdx (ix2 r n) ((contrEquiv1 dot_S512x1024_S1024x1024_S512x1024_1_1_0_0_n_n 1024 rfl rfl).symm k) = ix2 n k :=
    funext fun a => Fin.ext (by
      match a with
      | ⟨0, _⟩ => exact rhs_dot_0 _ _
      | ⟨1, _⟩ => exact (rhs_dot_1 _ _).trans hk)
  rw [el, er]

/-! ## A column of this kernel, and the sixteen side by side -/

/-- The column of slot c over this kernel's tiles: at row r, the sum over the lanes n of the logit of (token r, node
    row n) where the slot's node number is lane n's global number, and zero elsewhere. -/
theorem column_apply (i : grid0.Coords) (x0 : Vec Ideal S512x1024 .bf16) (x1 : Vec Ideal S1024x1024 .bf16)
    (x2 : Vec Ideal S512x16 .i32) (c : Nat) (hc : c < 16) (hS : S512x16.Slices ![0, c] S512x1)
    (hB1 : S512x1.Broadcasts S512x1024) (hB2 : S1x1024.Broadcasts S512x1024)
    (hR : S512x1024.Reduces [1] S512) (hφ : FKind.Formats .f32)
    (hacc : (0x00000000#32 : BitVec 32) = FKind.add.neutral .f32 hφ) (hC : S512.ShapeCasts S512x1) (r : Fin 512) :
    shapeCast S512x1 (multiReduction (F := Ideal) .add [1] S512
        (select (cmpi .eq (broadcastTo S512x1024 (extractStridedSlice S512x1 ![0, c] (k0_pay6 (F := Ideal) x2) hS) hB1)
            (broadcastTo S512x1024 (k0_pay7 i) hB2))
          (k0_pay5 (F := Ideal) x0 x1) (broadcast S512x1024 (Scalar.ofBits .f32 0x00000000#32))) 0x00000000#32 hR hφ hacc) hC
        (ix2 r (0 : Fin 1))
      = ∑ n : Fin 1024, if x2 (ix2 r (⟨c, hc⟩ : Fin 16)) = BitVec.ofNat 32 ((i 1).val * 1024 + n.val)
          then ∑ k : Fin 1024, x0 (ix2 r k) * x1 (ix2 n k) else 0 := by
  refine (col_apply _ _ _ hR hφ hacc hC r).trans ?_
  refine Finset.sum_congr rfl fun n _ => ?_
  rw [slot_apply _ c hc, lane_apply, logits_apply, pay6_apply]

/-- Off the axis the columns are laid along, (r, 0) of a column and (r, l) of the whole have the same coordinate. -/
theorem off_axis (r : Fin 512) (l : Fin 16) :
    ∀ b : Fin S512x1.rank, b.cast (rfl : S512x1.rank = S512x16.rank) ≠ (1 : Fin S512x16.rank) →
      ((ix2 r (0 : Fin 1)) b).val = ((ix2 r l) (b.cast (rfl : S512x1.rank = S512x16.rank))).val := by
  intro b hb
  match b with
  | ⟨0, _⟩ => rfl
  | ⟨1, _⟩ => exact absurd rfl hb

/-! Slot by slot: the whole at (r, c) is piece c of the sixteen at (r, 0) — the c pieces before it are one lane wide
    each —, and piece c is the column of slot c. -/

theorem cols_apply_0 (i : grid0.Coords) (x0 : Vec Ideal S512x1024 .bf16) (x1 : Vec Ideal S1024x1024 .bf16)
    (x2 : Vec Ideal S512x16 .i32) (r : Fin 512) :
    cols (F := Ideal) i x0 x1 x2 (ix2 r (⟨0, by decide⟩ : Fin 16))
      = ∑ n : Fin 1024, if x2 (ix2 r (⟨0, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨0, by decide⟩ : Fin 16)) 0 (by show (0 : Nat) < 16; omega) S512x1 _ rfl rfl 0 (by simp only [Fin.isValue, List.take_zero, List.map_nil, List.sum_nil])
    (ix2 r (0 : Fin 1)) (off_axis r _) rfl).trans ?_
  exact column_apply i x0 x1 x2 0 (by decide) slices_S512x16_o0_0_S512x1 broadcasts_S512x1_S512x1024
    broadcasts_S1x1024_S512x1024 reduces_S512x1024_S512 (.inl rfl) rfl shapeCasts_S512_S512x1 r

theorem cols_apply_1 (i : grid0.Coords) (x0 : Vec Ideal S512x1024 .bf16) (x1 : Vec Ideal S1024x1024 .bf16)
    (x2 : Vec Ideal S512x16 .i32) (r : Fin 512) :
    cols (F := Ideal) i x0 x1 x2 (ix2 r (⟨1, by decide⟩ : Fin 16))
      = ∑ n : Fin 1024, if x2 (ix2 r (⟨1, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨1, by decide⟩ : Fin 16)) 1 (by show (1 : Nat) < 16; omega) S512x1 _ rfl rfl 1 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 1 (by decide) slices_S512x16_o0_1_S512x1 broadcasts_S512x1_S512x1024
    broadcasts_S1x1024_S512x1024 reduces_S512x1024_S512 (.inl rfl) rfl shapeCasts_S512_S512x1 r

theorem cols_apply_2 (i : grid0.Coords) (x0 : Vec Ideal S512x1024 .bf16) (x1 : Vec Ideal S1024x1024 .bf16)
    (x2 : Vec Ideal S512x16 .i32) (r : Fin 512) :
    cols (F := Ideal) i x0 x1 x2 (ix2 r (⟨2, by decide⟩ : Fin 16))
      = ∑ n : Fin 1024, if x2 (ix2 r (⟨2, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨2, by decide⟩ : Fin 16)) 2 (by show (2 : Nat) < 16; omega) S512x1 _ rfl rfl 2 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 2 (by decide) slices_S512x16_o0_2_S512x1 broadcasts_S512x1_S512x1024
    broadcasts_S1x1024_S512x1024 reduces_S512x1024_S512 (.inl rfl) rfl shapeCasts_S512_S512x1 r

theorem cols_apply_3 (i : grid0.Coords) (x0 : Vec Ideal S512x1024 .bf16) (x1 : Vec Ideal S1024x1024 .bf16)
    (x2 : Vec Ideal S512x16 .i32) (r : Fin 512) :
    cols (F := Ideal) i x0 x1 x2 (ix2 r (⟨3, by decide⟩ : Fin 16))
      = ∑ n : Fin 1024, if x2 (ix2 r (⟨3, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨3, by decide⟩ : Fin 16)) 3 (by show (3 : Nat) < 16; omega) S512x1 _ rfl rfl 3 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 3 (by decide) slices_S512x16_o0_3_S512x1 broadcasts_S512x1_S512x1024
    broadcasts_S1x1024_S512x1024 reduces_S512x1024_S512 (.inl rfl) rfl shapeCasts_S512_S512x1 r

theorem cols_apply_4 (i : grid0.Coords) (x0 : Vec Ideal S512x1024 .bf16) (x1 : Vec Ideal S1024x1024 .bf16)
    (x2 : Vec Ideal S512x16 .i32) (r : Fin 512) :
    cols (F := Ideal) i x0 x1 x2 (ix2 r (⟨4, by decide⟩ : Fin 16))
      = ∑ n : Fin 1024, if x2 (ix2 r (⟨4, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨4, by decide⟩ : Fin 16)) 4 (by show (4 : Nat) < 16; omega) S512x1 _ rfl rfl 4 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 4 (by decide) slices_S512x16_o0_4_S512x1 broadcasts_S512x1_S512x1024
    broadcasts_S1x1024_S512x1024 reduces_S512x1024_S512 (.inl rfl) rfl shapeCasts_S512_S512x1 r

theorem cols_apply_5 (i : grid0.Coords) (x0 : Vec Ideal S512x1024 .bf16) (x1 : Vec Ideal S1024x1024 .bf16)
    (x2 : Vec Ideal S512x16 .i32) (r : Fin 512) :
    cols (F := Ideal) i x0 x1 x2 (ix2 r (⟨5, by decide⟩ : Fin 16))
      = ∑ n : Fin 1024, if x2 (ix2 r (⟨5, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨5, by decide⟩ : Fin 16)) 5 (by show (5 : Nat) < 16; omega) S512x1 _ rfl rfl 5 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 5 (by decide) slices_S512x16_o0_5_S512x1 broadcasts_S512x1_S512x1024
    broadcasts_S1x1024_S512x1024 reduces_S512x1024_S512 (.inl rfl) rfl shapeCasts_S512_S512x1 r

theorem cols_apply_6 (i : grid0.Coords) (x0 : Vec Ideal S512x1024 .bf16) (x1 : Vec Ideal S1024x1024 .bf16)
    (x2 : Vec Ideal S512x16 .i32) (r : Fin 512) :
    cols (F := Ideal) i x0 x1 x2 (ix2 r (⟨6, by decide⟩ : Fin 16))
      = ∑ n : Fin 1024, if x2 (ix2 r (⟨6, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨6, by decide⟩ : Fin 16)) 6 (by show (6 : Nat) < 16; omega) S512x1 _ rfl rfl 6 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 6 (by decide) slices_S512x16_o0_6_S512x1 broadcasts_S512x1_S512x1024
    broadcasts_S1x1024_S512x1024 reduces_S512x1024_S512 (.inl rfl) rfl shapeCasts_S512_S512x1 r

theorem cols_apply_7 (i : grid0.Coords) (x0 : Vec Ideal S512x1024 .bf16) (x1 : Vec Ideal S1024x1024 .bf16)
    (x2 : Vec Ideal S512x16 .i32) (r : Fin 512) :
    cols (F := Ideal) i x0 x1 x2 (ix2 r (⟨7, by decide⟩ : Fin 16))
      = ∑ n : Fin 1024, if x2 (ix2 r (⟨7, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨7, by decide⟩ : Fin 16)) 7 (by show (7 : Nat) < 16; omega) S512x1 _ rfl rfl 7 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 7 (by decide) slices_S512x16_o0_7_S512x1 broadcasts_S512x1_S512x1024
    broadcasts_S1x1024_S512x1024 reduces_S512x1024_S512 (.inl rfl) rfl shapeCasts_S512_S512x1 r

theorem cols_apply_8 (i : grid0.Coords) (x0 : Vec Ideal S512x1024 .bf16) (x1 : Vec Ideal S1024x1024 .bf16)
    (x2 : Vec Ideal S512x16 .i32) (r : Fin 512) :
    cols (F := Ideal) i x0 x1 x2 (ix2 r (⟨8, by decide⟩ : Fin 16))
      = ∑ n : Fin 1024, if x2 (ix2 r (⟨8, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨8, by decide⟩ : Fin 16)) 8 (by show (8 : Nat) < 16; omega) S512x1 _ rfl rfl 8 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 8 (by decide) slices_S512x16_o0_8_S512x1 broadcasts_S512x1_S512x1024
    broadcasts_S1x1024_S512x1024 reduces_S512x1024_S512 (.inl rfl) rfl shapeCasts_S512_S512x1 r

theorem cols_apply_9 (i : grid0.Coords) (x0 : Vec Ideal S512x1024 .bf16) (x1 : Vec Ideal S1024x1024 .bf16)
    (x2 : Vec Ideal S512x16 .i32) (r : Fin 512) :
    cols (F := Ideal) i x0 x1 x2 (ix2 r (⟨9, by decide⟩ : Fin 16))
      = ∑ n : Fin 1024, if x2 (ix2 r (⟨9, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨9, by decide⟩ : Fin 16)) 9 (by show (9 : Nat) < 16; omega) S512x1 _ rfl rfl 9 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 9 (by decide) slices_S512x16_o0_9_S512x1 broadcasts_S512x1_S512x1024
    broadcasts_S1x1024_S512x1024 reduces_S512x1024_S512 (.inl rfl) rfl shapeCasts_S512_S512x1 r

theorem cols_apply_10 (i : grid0.Coords) (x0 : Vec Ideal S512x1024 .bf16) (x1 : Vec Ideal S1024x1024 .bf16)
    (x2 : Vec Ideal S512x16 .i32) (r : Fin 512) :
    cols (F := Ideal) i x0 x1 x2 (ix2 r (⟨10, by decide⟩ : Fin 16))
      = ∑ n : Fin 1024, if x2 (ix2 r (⟨10, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨10, by decide⟩ : Fin 16)) 10 (by show (10 : Nat) < 16; omega) S512x1 _ rfl rfl 10 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 10 (by decide) slices_S512x16_o0_10_S512x1 broadcasts_S512x1_S512x1024
    broadcasts_S1x1024_S512x1024 reduces_S512x1024_S512 (.inl rfl) rfl shapeCasts_S512_S512x1 r

theorem cols_apply_11 (i : grid0.Coords) (x0 : Vec Ideal S512x1024 .bf16) (x1 : Vec Ideal S1024x1024 .bf16)
    (x2 : Vec Ideal S512x16 .i32) (r : Fin 512) :
    cols (F := Ideal) i x0 x1 x2 (ix2 r (⟨11, by decide⟩ : Fin 16))
      = ∑ n : Fin 1024, if x2 (ix2 r (⟨11, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨11, by decide⟩ : Fin 16)) 11 (by show (11 : Nat) < 16; omega) S512x1 _ rfl rfl 11 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 11 (by decide) slices_S512x16_o0_11_S512x1 broadcasts_S512x1_S512x1024
    broadcasts_S1x1024_S512x1024 reduces_S512x1024_S512 (.inl rfl) rfl shapeCasts_S512_S512x1 r

theorem cols_apply_12 (i : grid0.Coords) (x0 : Vec Ideal S512x1024 .bf16) (x1 : Vec Ideal S1024x1024 .bf16)
    (x2 : Vec Ideal S512x16 .i32) (r : Fin 512) :
    cols (F := Ideal) i x0 x1 x2 (ix2 r (⟨12, by decide⟩ : Fin 16))
      = ∑ n : Fin 1024, if x2 (ix2 r (⟨12, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨12, by decide⟩ : Fin 16)) 12 (by show (12 : Nat) < 16; omega) S512x1 _ rfl rfl 12 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 12 (by decide) slices_S512x16_o0_12_S512x1 broadcasts_S512x1_S512x1024
    broadcasts_S1x1024_S512x1024 reduces_S512x1024_S512 (.inl rfl) rfl shapeCasts_S512_S512x1 r

theorem cols_apply_13 (i : grid0.Coords) (x0 : Vec Ideal S512x1024 .bf16) (x1 : Vec Ideal S1024x1024 .bf16)
    (x2 : Vec Ideal S512x16 .i32) (r : Fin 512) :
    cols (F := Ideal) i x0 x1 x2 (ix2 r (⟨13, by decide⟩ : Fin 16))
      = ∑ n : Fin 1024, if x2 (ix2 r (⟨13, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨13, by decide⟩ : Fin 16)) 13 (by show (13 : Nat) < 16; omega) S512x1 _ rfl rfl 13 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 13 (by decide) slices_S512x16_o0_13_S512x1 broadcasts_S512x1_S512x1024
    broadcasts_S1x1024_S512x1024 reduces_S512x1024_S512 (.inl rfl) rfl shapeCasts_S512_S512x1 r

theorem cols_apply_14 (i : grid0.Coords) (x0 : Vec Ideal S512x1024 .bf16) (x1 : Vec Ideal S1024x1024 .bf16)
    (x2 : Vec Ideal S512x16 .i32) (r : Fin 512) :
    cols (F := Ideal) i x0 x1 x2 (ix2 r (⟨14, by decide⟩ : Fin 16))
      = ∑ n : Fin 1024, if x2 (ix2 r (⟨14, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨14, by decide⟩ : Fin 16)) 14 (by show (14 : Nat) < 16; omega) S512x1 _ rfl rfl 14 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 14 (by decide) slices_S512x16_o0_14_S512x1 broadcasts_S512x1_S512x1024
    broadcasts_S1x1024_S512x1024 reduces_S512x1024_S512 (.inl rfl) rfl shapeCasts_S512_S512x1 r

theorem cols_apply_15 (i : grid0.Coords) (x0 : Vec Ideal S512x1024 .bf16) (x1 : Vec Ideal S1024x1024 .bf16)
    (x2 : Vec Ideal S512x16 .i32) (r : Fin 512) :
    cols (F := Ideal) i x0 x1 x2 (ix2 r (⟨15, by decide⟩ : Fin 16))
      = ∑ n : Fin 1024, if x2 (ix2 r (⟨15, by decide⟩ : Fin 16)) = BitVec.ofNat 32 ((i 1).val * 1024 + n.val)
          then ∑ k : Fin 1024, x0 (ix2 r k) * x1 (ix2 n k) else 0 := by
  unfold cols k0_pay2
  refine (concatenate_apply_piece 1 _ _ (ix2 r (⟨15, by decide⟩ : Fin 16)) 15 (by show (15 : Nat) < 16; omega) S512x1 _ rfl rfl 15 (by
      simp only [Fin.isValue, List.take_succ_cons, List.take_zero, List.map_cons, List.map_nil, ↓reduceDIte,
      Fin.cast_eq_self, Matrix.cons_val_one, Matrix.cons_val_fin_one, List.sum_cons, List.sum_nil, add_zero, Nat.reduceAdd])
    (ix2 r (0 : Fin 1)) (off_axis r _) rfl).trans ?_
  exact column_apply i x0 x1 x2 15 (by decide) slices_S512x16_o0_15_S512x1 broadcasts_S512x1_S512x1024
    broadcasts_S1x1024_S512x1024 reduces_S512x1024_S512 (.inl rfl) rfl shapeCasts_S512_S512x1 r

/-- At token r and slot l, over the extended reals: the sum over the tile's lanes n of the logit of (token r, node
    row n) — the contraction of hidden row r with weight row n — where slot l's node number is lane n's global
    number (column tile times 1024, plus n), and zero elsewhere. -/
theorem cols_apply (i : grid0.Coords) (x0 : Vec Ideal S512x1024 .bf16) (x1 : Vec Ideal S1024x1024 .bf16)
    (x2 : Vec Ideal S512x16 .i32) (r : Fin 512) (l : Fin 16) :
    cols (F := Ideal) i x0 x1 x2 (ix2 r l)
      = ∑ n : Fin 1024, if x2 (ix2 r l) = BitVec.ofNat 32 ((i 1).val * 1024 + n.val)
          then ∑ k : Fin 1024, x0 (ix2 r k) * x1 (ix2 n k) else 0 := by
  match l with
  | ⟨0, _⟩ => exact cols_apply_0 i x0 x1 x2 r
  | ⟨1, _⟩ => exact cols_apply_1 i x0 x1 x2 r
  | ⟨2, _⟩ => exact cols_apply_2 i x0 x1 x2 r
  | ⟨3, _⟩ => exact cols_apply_3 i x0 x1 x2 r
  | ⟨4, _⟩ => exact cols_apply_4 i x0 x1 x2 r
  | ⟨5, _⟩ => exact cols_apply_5 i x0 x1 x2 r
  | ⟨6, _⟩ => exact cols_apply_6 i x0 x1 x2 r
  | ⟨7, _⟩ => exact cols_apply_7 i x0 x1 x2 r
  | ⟨8, _⟩ => exact cols_apply_8 i x0 x1 x2 r
  | ⟨9, _⟩ => exact cols_apply_9 i x0 x1 x2 r
  | ⟨10, _⟩ => exact cols_apply_10 i x0 x1 x2 r
  | ⟨11, _⟩ => exact cols_apply_11 i x0 x1 x2 r
  | ⟨12, _⟩ => exact cols_apply_12 i x0 x1 x2 r
  | ⟨13, _⟩ => exact cols_apply_13 i x0 x1 x2 r
  | ⟨14, _⟩ => exact cols_apply_14 i x0 x1 x2 r
  | ⟨15, _⟩ => exact cols_apply_15 i x0 x1 x2 r
  | ⟨n + 16, h⟩ => exact absurd h (by omega)

end Cert.KernelIdeal.Hsm

end
-- ==== Proof.Pieces.lean ====
/-
  What one grid point leaves in the output's staging block. At a point that begins a row tile's sweep over the
  column tiles the body stores a zero block, reads it back and adds the point's sixteen columns; at every other
  point it adds them to what the point before left.
-/
import proofs.«422814_j32298154066259_1_alg».proof.Proof.Gen.KernelIdeal.Frame
import proofs.«422814_j32298154066259_1_alg».proof.Proof.Cols
import Idealize.ShloMosaic.Lib.Pipeline.Value
import Idealize.ShloMosaic.Lib.Tactic

noncomputable section

open Idealize.ShloMosaic Idealize.ShloMosaic.TcCoe Idealize.SL.Sem
open Idealize.ShloMosaic.ValueIdx

open Idealize.ShloMosaic.Pipeline (Dat)

namespace Cert.KernelIdeal.Hsm

open Cert.KernelIdeal Cert.KernelIdeal.Gen

variable {F : FTy → Type} [FloatOps F]

theorem offs_zero : (![0, 0] : Fin 2 → Nat) = fun _ => 0 := funext fun a => by fin_cases a <;> rfl

/-- A later point of a sweep: the block the point before left, plus this point's columns. -/
theorem out_later (c : Dev nD) (i : grid0.Coords) (a2 : Memref sig .tc .vmem S512x1024 .bf16) (h2 : a2.IsWhole)
    (a3 : Memref sig .tc .vmem S1024x1024 .bf16) (h3 : a3.IsWhole) (a4 : Memref sig .tc .vmem S512x16 .i32) (h4 : a4.IsWhole)
    (a5 : Memref sig .tc .vmem S512x16 .f32) (h5 : a5.IsWhole) (hc : ¬cond0_0 i)
    (x0 : Vec F S512x1024 .bf16) (x1 : Vec F S1024x1024 .bf16) (x2 : Vec F S512x16 .i32) (xo : Vec F S512x16 .f32) :
    out0_B_3 c i a2 h2 a3 h3 a4 h4 a5 h5 hc x0 x1 x2 xo = k0_pay3 (cols i x0 x1 x2) xo := by
  unfold out0_B_3
  rw [View.read_writes_eq_canon _ _ _ (cover0_B_3 c i a2 h2 a3 h3 a4 h4 a5 h5 hc x0 x1 x2 xo)]
  unfold kernelRun0_B
  dsimp only
  sl_unfold_words
  rw [View.canon_unit_zero offs_zero]
  simp only [View.readAt_eq_ld, h2.read_unread, h3.read_unread, h4.read_unread, h5.read_unread,
    View.ld_unit_zero (S := S512x1024) offs_zero, View.ld_unit_zero (S := S1024x1024) offs_zero,
    View.ld_unit_zero (S := S512x16) offs_zero]
  rfl

/-- The first point of a sweep: the zero block, plus this point's columns. -/
theorem out_first (c : Dev nD) (i : grid0.Coords) (a2 : Memref sig .tc .vmem S512x1024 .bf16) (h2 : a2.IsWhole)
    (a3 : Memref sig .tc .vmem S1024x1024 .bf16) (h3 : a3.IsWhole) (a4 : Memref sig .tc .vmem S512x16 .i32) (h4 : a4.IsWhole)
    (a5 : Memref sig .tc .vmem S512x16 .f32) (h5 : a5.IsWhole) (hc : cond0_0 i)
    (x0 : Vec F S512x1024 .bf16) (x1 : Vec F S1024x1024 .bf16) (x2 : Vec F S512x16 .i32) :
    out0_A_3 c i a2 h2 a3 h3 a4 h4 a5 h5 hc x0 x1 x2 = k0_pay3 (cols i x0 x1 x2) k0_pay4 := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S512x16) offs_zero, View.readCov_unit_zero (S := S512x16) _ offs_zero]
  simp only [View.readAt_eq_ld, h2.read_unread, h3.read_unread, h4.read_unread, h5.read_unread,
    View.ld_unit_zero (S := S512x1024) offs_zero, View.ld_unit_zero (S := S1024x1024) offs_zero,
    View.ld_unit_zero (S := S512x16) offs_zero]
  rfl

/-- Read at an index over the extended reals: the earlier block's entry plus the columns' entry. -/
theorem pay3_apply (a : FVec Ideal S512x16 .f32) (b : Vec Ideal S512x16 .f32) (y : S512x16.Idx) :
    k0_pay3 (F := Ideal) a b y = b y + a y := by
  unfold k0_pay3
  simp only [shapeCast_self]
  rfl

/-- The zero block's entries are zero. -/
theorem pay4_apply (y : S512x16.Idx) : k0_pay4 (F := Ideal) y = 0 := by
  unfold k0_pay4
  show Ideal.ofBits .f32 0x00000000#32 = 0
  exact Ideal.ofBits_zero_f32

end Cert.KernelIdeal.Hsm

end
-- ==== Proof.Accum.lean ====
/-
  The output array of path logits after the whole grid. Grid point t = 32·(row tile) + (column tile). Within a row
  tile's sweep the staging block starts from zero at the first column tile and gains one point's sixteen columns at
  every column tile; it is written back once, after the last. So the array entry for (token, slot) ends as the sum
  over the 32 column tiles and the 1024 lanes of each of a one-hot selection of that token's logits by the slot's
  node number.
-/
import proofs.«422814_j32298154066259_1_alg».proof.Proof.Gen.KernelIdeal.Frame
import proofs.«422814_j32298154066259_1_alg».proof.Proof.Pieces
import Idealize.ShloMosaic.Lib.Pipeline.Value
import Idealize.ShloMosaic.Lib.Tactic

noncomputable section

open Idealize.ShloMosaic Idealize.ShloMosaic.TcCoe Idealize.SL.Sem
open Idealize.ShloMosaic.ValueIdx

open Idealize.ShloMosaic.Pipeline (Dat)

namespace Cert.KernelIdeal.Hsm

open Cert.KernelIdeal Cert.KernelIdeal.Gen

/-- The array of path logits the kernel leaves, as one function of the three arrays its windows read: hidden
    states H [4096, 1024], node weights W [32768, 1024] (padded), slot node numbers v [4096, 16]. Entry (token, slot):
    over column tiles j and lanes n, the logit (H's token row against W's row 1024 j + n) where the slot's node
    number is 1024 j + n, zero elsewhere. -/
def pathLogits (H : FVec Ideal S4096x1024 .bf16) (W : FVec Ideal S32768x1024 .bf16) (v : IVec S4096x16 32) :
    FVec Ideal S4096x16 .f32 :=
  fun y => ∑ j : Fin 32, ∑ n : Fin 1024,
    if v y = BitVec.ofNat 32 (j.val * 1024 + n.val) then
      ∑ k : Fin 1024, H (ix2 (⟨(y 0).val, idx2_lt0 y⟩ : Fin 4096) k)
        * W (ix2 (⟨j.val * 1024 + n.val, by have := j.isLt; have := n.isLt; omega⟩ : Fin 32768) k)
    else 0

variable (m : (ℓ : Loc nD τ sig) → Buf (Elt Ideal) ℓ)

/-- The three arrays the windows read, by their literal types. -/
abbrev hid (c : Dev nD) : FVec Ideal S4096x1024 .bf16 := V m c main_v1
abbrev wts (c : Dev nD) : FVec Ideal S32768x1024 .bf16 := V m c main_v27
abbrev slt (c : Dev nD) : IVec S4096x16 32 := V m c main_v25

/-- The three blocks a point reads, by their literal types. -/
abbrev hblk (c : Dev nD) (t : Fin cfg0.N) : Vec Ideal S512x1024 .bf16 := iblk m c 0 t
abbrev wblk (c : Dev nD) (t : Fin cfg0.N) : Vec Ideal S1024x1024 .bf16 := iblk m c 1 t
abbrev sblk (c : Dev nD) (t : Fin cfg0.N) : Vec Ideal S512x16 .i32 := iblk m c 2 t

/-- Row r of row tile q, as a token number (q is read modulo 8, so no bound is asked). -/
abbrev tokRow (q : ℕ) (r : Fin 512) : Fin 4096 := ⟨512 * (q % 8) + r.val, by have := r.isLt; omega⟩
/-- Lane n of column tile j, as a node number (j is read modulo 32, so no bound is asked). -/
abbrev nodeRow (j : ℕ) (n : Fin 1024) : Fin 32768 := ⟨(j % 32) * 1024 + n.val, by have := n.isLt; omega⟩

/-- The block indices of the four windows at a point, decided once over the grid. -/
theorem idx_facts : ∀ t : Fin cfg0.N,
    win0_0.index t (0 : Fin 2) = t.val / 32 ∧ win0_0.index t (1 : Fin 2) = 0
    ∧ win0_1.index t (0 : Fin 2) = t.val % 32 ∧ win0_1.index t (1 : Fin 2) = 0
    ∧ win0_2.index t (0 : Fin 2) = t.val / 32 ∧ win0_2.index t (1 : Fin 2) = 0
    ∧ win0_3.index t (0 : Fin 2) = t.val / 32 ∧ win0_3.index t (1 : Fin 2) = 0 :=
  (by decide +kernel : ∀ t : Fin grid0.N, _)

/-- The second grid coordinate of a point is its column tile. -/
theorem coord1 : ∀ t : Fin cfg0.N, ((grid0.coords t) 1).val = t.val % 32 :=
  (by decide +kernel : ∀ t : Fin grid0.N, _)

/-- The hidden block of a point: rows of its row tile. -/
theorem hblk_apply (c : Dev nD) (t : Fin cfg0.N) (r : Fin 512) (k : Fin 1024) :
    hblk m c t (ix2 r k) = hid m c (ix2 (tokRow (t.val / 32) r) k) := by
  have hN : t.val < 256 := lt_of_lt_of_eq t.isLt (show cfg0.N = 256 from N_0)
  obtain ⟨e0, e1, -⟩ := idx_facts t
  unfold hblk iblk
  rw [View.read_apply]
  show V m c main_v1 (((cfg0.win 0).blk t).view.emb (ix2 r k)) = V m c main_v1 (ix2 (tokRow (t.val / 32) r) k)
  congr 1
  funext a
  apply Fin.ext
  match a with
  | ⟨0, _⟩ => show win0_0.index t (0 : Fin 2) * 512 + 1 * r.val = 512 * (t.val / 32 % 8) + r.val; rw [e0]; omega
  | ⟨1, _⟩ => show win0_0.index t (1 : Fin 2) * 1024 + 1 * k.val = k.val; rw [e1]; omega

/-- The weight block of a point: rows of its column tile. -/
theorem wblk_apply (c : Dev nD) (t : Fin cfg0.N) (n : Fin 1024) (k : Fin 1024) :
    wblk m c t (ix2 n k) = wts m c (ix2 (nodeRow (t.val % 32) n) k) := by
  obtain ⟨-, -, e0, e1, -⟩ := idx_facts t
  unfold wblk iblk
  rw [View.read_apply]
  show V m c main_v27 (((cfg0.win 1).blk t).view.emb (ix2 n k)) = V m c main_v27 (ix2 (nodeRow (t.val % 32) n) k)
  congr 1
  funext a
  apply Fin.ext
  match a with
  | ⟨0, _⟩ => show win0_1.index t (0 : Fin 2) * 1024 + 1 * n.val = t.val % 32 % 32 * 1024 + n.val; rw [e0]; omega
  | ⟨1, _⟩ => show win0_1.index t (1 : Fin 2) * 1024 + 1 * k.val = k.val; rw [e1]; omega

/-- The slot block of a point: rows of its row tile. -/
theorem sblk_apply (c : Dev nD) (t : Fin cfg0.N) (r : Fin 512) (l : Fin 16) :
    sblk m c t (ix2 r l) = slt m c (ix2 (tokRow (t.val / 32) r) l) := by
  have hN : t.val < 256 := lt_of_lt_of_eq t.isLt (show cfg0.N = 256 from N_0)
  obtain ⟨-, -, -, -, e0, e1, -⟩ := idx_facts t
  unfold sblk iblk
  rw [View.read_apply]
  show V m c main_v25 (((cfg0.win 2).blk t).view.emb (ix2 r l)) = V m c main_v25 (ix2 (tokRow (t.val / 32) r) l)
  congr 1
  funext a
  apply Fin.ext
  match a with
  | ⟨0, _⟩ => show win0_2.index t (0 : Fin 2) * 512 + 1 * r.val = 512 * (t.val / 32 % 8) + r.val; rw [e0]; omega
  | ⟨1, _⟩ => show win0_2.index t (1 : Fin 2) * 16 + 1 * l.val = l.val; rw [e1]; omega

/-- One column tile's share of an entry of the path logits: over its 1024 lanes, the token's logit against the lane's
    node where the slot's node number is that node, zero elsewhere. -/
def tileTerm (H : FVec Ideal S4096x1024 .bf16) (W : FVec Ideal S32768x1024 .bf16) (v : IVec S4096x16 32)
    (R : Fin 4096) (l : Fin 16) (j : ℕ) : EReal :=
  ∑ n : Fin 1024, if v (ix2 R l) = BitVec.ofNat 32 (j * 1024 + n.val) then
    ∑ k : Fin 1024, H (ix2 R k) * W (ix2 (nodeRow j n) k) else 0

/-- The sixteen columns a point computes, at an entry: its column tile's share for the token of that row. -/
theorem cols_point (c : Dev nD) (t : Fin cfg0.N) (r : Fin 512) (l : Fin 16) :
    cols (F := Ideal) (grid0.coords t) (hblk m c t) (wblk m c t) (sblk m c t) (ix2 r l)
      = tileTerm (hid m c) (wts m c) (slt m c) (tokRow (t.val / 32) r) l (t.val % 32) := by
  rw [cols_apply, coord1 t, sblk_apply]
  unfold tileTerm
  refine Finset.sum_congr rfl fun n _ => ?_
  refine if_congr Iff.rfl ?_ rfl
  refine Finset.sum_congr rfl fun k _ => ?_
  rw [hblk_apply, wblk_apply]

/-- At the first point of a sweep the staging block's entry is that point's column tile's share alone. -/
theorem outs_first (c : Dev nD) (n : ℕ) (hn : n < cfg0.N) (h0 : n % 32 = 0) (r : Fin 512) (l : Fin 16) :
    outsAt0 (F := Ideal) m c n hn (ix2 r l)
      = tileTerm (hid m c) (wts m c) (slt m c) (tokRow (n / 32) r) l (n % 32) := by
  rw [outsAt0_A m c ⟨n, hn⟩ h0]
  refine (congrFun (out_first (F := Ideal) c (grid0.coords ⟨n, hn⟩) (ms0_0 ⟨n, hn⟩) (hs0_0 ⟨n, hn⟩) (ms0_1 ⟨n, hn⟩)
    (hs0_1 ⟨n, hn⟩) (ms0_2 ⟨n, hn⟩) (hs0_2 ⟨n, hn⟩) (ms0_3 ⟨n, hn⟩) (hs0_3 ⟨n, hn⟩) ((hcond0_0 ⟨n, hn⟩).mpr h0)
    (hblk m c ⟨n, hn⟩) (wblk m c ⟨n, hn⟩) (sblk m c ⟨n, hn⟩)) (ix2 r l)).trans ?_
  rw [pay3_apply, pay4_apply, zero_add]
  exact cols_point m c ⟨n, hn⟩ r l

/-- At a later point of a sweep the entry gains that point's column tile's share. -/
theorem outs_later (c : Dev nD) (n : ℕ) (hn : n + 1 < cfg0.N) (h0 : ¬(n + 1) % 32 = 0) (r : Fin 512) (l : Fin 16) :
    outsAt0 (F := Ideal) m c (n + 1) hn (ix2 r l)
      = outsAt0 (F := Ideal) m c n (Nat.lt_of_succ_lt hn) (ix2 r l)
        + tileTerm (hid m c) (wts m c) (slt m c) (tokRow ((n + 1) / 32) r) l ((n + 1) % 32) := by
  rw [outsAt0_B m c ⟨n + 1, hn⟩ h0]
  refine (congrFun (out_later (F := Ideal) c (grid0.coords ⟨n + 1, hn⟩) (ms0_0 ⟨n + 1, hn⟩) (hs0_0 ⟨n + 1, hn⟩)
    (ms0_1 ⟨n + 1, hn⟩) (hs0_1 ⟨n + 1, hn⟩) (ms0_2 ⟨n + 1, hn⟩) (hs0_2 ⟨n + 1, hn⟩) (ms0_3 ⟨n + 1, hn⟩)
    (hs0_3 ⟨n + 1, hn⟩) (fun h => h0 ((hcond0_0 ⟨n + 1, hn⟩).mp h))
    (hblk m c ⟨n + 1, hn⟩) (wblk m c ⟨n + 1, hn⟩) (sblk m c ⟨n + 1, hn⟩)
    (outsAt0 (F := Ideal) m c n (Nat.lt_of_succ_lt hn))) (ix2 r l)).trans ?_
  rw [pay3_apply]
  exact congrArg (outsAt0 (F := Ideal) m c n (Nat.lt_of_succ_lt hn) (ix2 r l) + ·) (cols_point m c ⟨n + 1, hn⟩ r l)

/-- The invariant of the sweep: after point n the staging block's entry (r, l) is the sum of the shares of the column
    tiles 0 … n mod 32, for the token of row r of row tile n / 32. -/
theorem outs_eq (c : Dev nD) : ∀ (n : ℕ) (hn : n < cfg0.N) (r : Fin 512) (l : Fin 16),
    outsAt0 (F := Ideal) m c n hn (ix2 r l)
      = ∑ j ∈ Finset.range (n % 32 + 1), tileTerm (hid m c) (wts m c) (slt m c) (tokRow (n / 32) r) l j := by
  intro n
  induction n with
  | zero =>
    intro hn r l
    rw [outs_first m c 0 hn rfl r l]
    exact (Finset.sum_range_one _).symm
  | succ n ih =>
    intro hn r l
    by_cases h0 : (n + 1) % 32 = 0
    · rw [outs_first m c (n + 1) hn h0 r l, Finset.sum_range_succ, h0, Finset.range_zero, Finset.sum_empty, zero_add]
    · have e := ih (Nat.lt_of_succ_lt hn) r l
      have e1 : n / 32 = (n + 1) / 32 := by omega
      have e2 : n % 32 + 1 = (n + 1) % 32 := by omega
      rw [e1, e2] at e
      rw [outs_later m c n hn h0 r l, e, Finset.sum_range_succ]

/-- An entry of the path logits as the sum of the 32 column tiles' shares. -/
theorem pathLogits_apply (H : FVec Ideal S4096x1024 .bf16) (W : FVec Ideal S32768x1024 .bf16) (v : IVec S4096x16 32)
    (R : Fin 4096) (l : Fin 16) :
    pathLogits H W v (ix2 R l) = ∑ j ∈ Finset.range 32, tileTerm H W v R l j := by
  rw [← Fin.sum_univ_eq_sum_range (fun j => tileTerm H W v R l j) 32]
  unfold pathLogits tileTerm
  refine Finset.sum_congr rfl fun j _ => Finset.sum_congr rfl fun n _ => ?_
  refine if_congr Iff.rfl (Finset.sum_congr rfl fun k _ => ?_) rfl
  have eN : nodeRow j.val n = (⟨j.val * 1024 + n.val, by have := j.isLt; have := n.isLt; omega⟩ : Fin 32768) :=
    Fin.ext (by show j.val % 32 * 1024 + n.val = j.val * 1024 + n.val; rw [Nat.mod_eq_of_lt j.isLt])
  rw [eN]

/-- The block a point at the end of a sweep writes back is its row tile's block of the path logits. -/
theorem flushed_eq (c : Dev nD) (t : Fin cfg0.N) (hf : (cfg0.win 3).flush t = true) :
    (dats (F := Ideal) m 0 c).flushed 3 t
      = ((cfg0.win 3).blk t).view.read (Elt Ideal) (pathLogits (V m c main_v1) (V m c main_v27) (V m c main_v25)) := by
  have hN : t.val < 256 := lt_of_lt_of_eq t.isLt (show cfg0.N = 256 from N_0)
  have h31 : t.val % 32 = 31 := (flush0_3 t).mp hf
  obtain ⟨-, -, -, -, -, -, e0, e1⟩ := idx_facts t
  show (cfg0.win 3).cut (grid0.coords t) ((dats (F := Ideal) m 0 c).after 3 t) = _
  rw [after0_3]
  funext y
  have hy0 : (y 0).val < 512 := (y 0).isLt
  have hy1 : (y 1).val < 16 := (y 1).isLt
  have ex : (cfg0.win 3).xinj (grid0.coords t) y = ix2 (⟨(y 0).val, hy0⟩ : Fin 512) (⟨(y 1).val, hy1⟩ : Fin 16) := by
    funext a
    match a with
    | ⟨0, _⟩ => rfl
    | ⟨1, _⟩ => rfl
  have ey : ((cfg0.win 3).blk t).view.emb y
      = ix2 (tokRow (t.val / 32) (⟨(y 0).val, hy0⟩ : Fin 512)) (⟨(y 1).val, hy1⟩ : Fin 16) := by
    funext a
    apply Fin.ext
    match a with
    | ⟨0, _⟩ => show win0_3.index t (0 : Fin 2) * 512 + 1 * (y 0).val = 512 * (t.val / 32 % 8) + (y 0).val; rw [e0]; omega
    | ⟨1, _⟩ => show win0_3.index t (1 : Fin 2) * 16 + 1 * (y 1).val = (y 1).val; rw [e1]; omega
  rw [View.read_apply]
  show outsAt0 (F := Ideal) m c t.val t.isLt ((cfg0.win 3).xinj (grid0.coords t) y)
    = pathLogits (V m c main_v1) (V m c main_v27) (V m c main_v25) (((cfg0.win 3).blk t).view.emb y)
  rw [ex, ey, outs_eq, h31, pathLogits_apply]

/-- Every entry of the output array lies in the block some end-of-sweep point writes back: the last point of the
    entry's row tile. -/
theorem covered (i : S4096x16.Idx) :
    ∃ t : Fin cfg0.N, (cfg0.win 3).flush t = true ∧ i ∈ ((cfg0.win 3).blk t).view.set := by
  have hi0 : (i 0).val < 4096 := (i 0).isLt
  have hi1 : (i 1).val < 16 := (i 1).isLt
  have hT : 32 * ((i 0).val / 512) + 31 < cfg0.N := lt_of_lt_of_eq (by omega) N_0.symm
  obtain ⟨-, -, -, -, -, -, e0, e1⟩ := idx_facts ⟨32 * ((i 0).val / 512) + 31, hT⟩
  have e0' : win0_3.index ⟨32 * ((i 0).val / 512) + 31, hT⟩ (0 : Fin 2) = (32 * ((i 0).val / 512) + 31) / 32 := e0
  refine ⟨⟨32 * ((i 0).val / 512) + 31, hT⟩,
    (flush0_3 _).mpr (by show (32 * ((i 0).val / 512) + 31) % 32 = 31; omega), ?_⟩
  show i ∈ ((View.whole main_v28).slice (win0_3.rect ⟨32 * ((i 0).val / 512) + 31, hT⟩)).set
  rw [View.set_slice_whole, Rect.mem_set_unit]
  intro a
  match a with
  | ⟨0, _⟩ =>
    show win0_3.index ⟨32 * ((i 0).val / 512) + 31, hT⟩ (0 : Fin 2) * 512 ≤ (i 0).val
      ∧ (i 0).val < win0_3.index ⟨32 * ((i 0).val / 512) + 31, hT⟩ (0 : Fin 2) * 512 + 512
    rw [e0']; omega
  | ⟨1, _⟩ =>
    show win0_3.index ⟨32 * ((i 0).val / 512) + 31, hT⟩ (1 : Fin 2) * 16 ≤ (i 1).val
      ∧ (i 1).val < win0_3.index ⟨32 * ((i 0).val / 512) + 31, hT⟩ (1 : Fin 2) * 16 + 16
    rw [e1]; omega

/-- After the run the output array holds the path logits of the arrays the region found. -/
theorem final_logits (c : Dev nD) :
    (dats (F := Ideal) m 0 c).arrAt 3 cfg0.N = pathLogits (V m c main_v1) (V m c main_v27) (V m c main_v25) :=
  (dats (F := Ideal) m 0 c).arrAt_eq_of_cover 3 (pathLogits (V m c main_v1) (V m c main_v27) (V m c main_v25))
    (fun t hf => flushed_eq m c t hf) fun i => covered i

end Cert.KernelIdeal.Hsm

end
-- ==== Proof.HostK.lean ====
/-
  The host side of the kernel's program. Before the region: the hidden states reshaped to [4096, 1024] (a change
  of float format is the identity over the extended reals); the node weights padded by one zero row to [32768, 1024];
  the target ids clipped to [0, 32767] and used to take rows of the three per-leaf path tables (node numbers, with
  negatives raised to 0; targets; masks). After the region: the binary cross-entropy with logits of each path logit
  against its target, weighted by the mask, summed, and divided by the mask's sum when that sum is positive.
-/
import proofs.«422814_j32298154066259_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem
open Idealize.ShloMosaic.ValueIdx

open Idealize.ShloMosaic.Pipeline (Dat)

namespace Cert.KernelIdeal.Hsm

open Cert.KernelIdeal Cert.KernelIdeal.Gen

variable {F : FTy → Type} [FloatOps F]

/-- Hidden states, one row per token. -/
def hidK (a0 : FVec F S2x2048x1024 .f32) : FVec F S4096x1024 .bf16 :=
  truncf .bf16 (shapeCast S4096x1024 a0 shapeCasts_S2x2048x1024_S4096x1024) bitsLt_bf16_f32

/-- Node weights with one zero row appended. -/
def wK (a2 : FVec F S32767x1024 .f32) : FVec F S32768x1024 .bf16 :=
  truncf .bf16 (pad S32768x1024 ![0, 0] ![1, 0] ![0, 0] a2 (sitofp (F := F) .f32 (constantI S_ 32 0#32))
    pads_S32767x1024_S32768x1024_010_000 h_S_) bitsLt_bf16_f32

/-- Target ids clipped to the leaves' range. -/
def clipK (a1 : IVec S2x2048 32) : IVec S4096 32 :=
  minsi (broadcastInDim S4096 ![] bcast_S_S4096 (id (constantI S_ 32 32767#32)))
    (maxsi (broadcastInDim S4096 ![] bcast_S_S4096 (id (constantI S_ 32 0#32))) (shapeCast S4096 a1 shapeCasts_S2x2048_S4096))

/-- The row of the path tables each token takes (jnp's indexing: a negative id would count from the end). -/
def tokRowK (a1 : IVec S2x2048 32) : IVec S4096x1 32 :=
  broadcastInDim S4096x1 ![0] bcast_S4096_S4096x1_0
    (select (cmpi .slt (clipK a1) (broadcastInDim S4096 ![] bcast_S_S4096 (constantI S_ 32 0#32)))
      (addi (clipK a1) (broadcastInDim S4096 ![] bcast_S_S4096 (constantI S_ 32 32768#32))) (clipK a1))

/-- Each token's slot node numbers, negatives (padding) raised to 0. -/
def nodesK (a1 : IVec S2x2048 32) (a3 : IVec S32768x16 32) : IVec S4096x16 32 :=
  maxsi (broadcastInDim S4096x16 ![] bcast_S_S4096x16 (id (constantI S_ 32 0#32)))
    (Host.gather gather_S32768x16_S4096x1_S4096x16_1_0_n_n_0_1_116 a3 (tokRowK a1))

/-- Each token's slot targets. -/
def tgtK (a1 : IVec S2x2048 32) (a4 : FVec F S32768x16 .f32) : FVec F S4096x16 .f32 :=
  Host.gather gather_S32768x16_S4096x1_S4096x16_1_0_n_n_0_1_116 a4 (tokRowK a1)

/-- Each token's slot masks. -/
def mskK (a1 : IVec S2x2048 32) (a5 : FVec F S32768x16 .f32) : FVec F S4096x16 .f32 :=
  Host.gather gather_S32768x16_S4096x1_S4096x16_1_0_n_n_0_1_116 a5 (tokRowK a1)

/-- The masked mean of the binary cross-entropy with logits P against targets T under mask M. -/
def bceMeanK (P T M : FVec F S4096x16 .f32) : FVec F S_ .f32 :=
  select
    (cmpf .ogt (Host.reduceAdd M (constant (F := F) S_ .f32 0x00000000#32) reducesTo_S4096x16_S_d0_1 h_S_) (constant (F := F) S_ .f32 0x00000000#32))
    (Host.divf
      (Host.reduceAdd
        (mulf (addf (subf (maximumf P (broadcastInDim S4096x16 ![] bcast_S_S4096x16 (constant (F := F) S_ .f32 0x00000000#32))) (mulf P T))
          (Host.log1p (Host.exp (Host.negf (Host.absf P))))) M)
        (constant (F := F) S_ .f32 0x00000000#32) reducesTo_S4096x16_S_d0_1 h_S_)
      (Host.reduceAdd M (constant (F := F) S_ .f32 0x00000000#32) reducesTo_S4096x16_S_d0_1 h_S_))
    (constant (F := F) S_ .f32 0x00000000#32)

variable (m : (ℓ : Loc nD τ sig) → Buf (Elt F) ℓ)

/-! Each value the host wrote before the region is the composition of the operations that wrote it. -/

theorem V_hid (c : Dev nD) : V m c main_v1 = hidK (m ((c : Thread nD τ).loc main_arg0)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_w (c : Dev nD) : V m c main_v27 = wK (m ((c : Thread nD τ).loc main_arg2)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_nodes (c : Dev nD) :
    V m c main_v25 = nodesK (m ((c : Thread nD τ).loc main_arg1)) (m ((c : Thread nD τ).loc main_arg3)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_tgt (c : Dev nD) :
    V m c main_v17 = tgtK (m ((c : Thread nD τ).loc main_arg1)) (m ((c : Thread nD τ).loc main_arg4)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

theorem V_msk (c : Dev nD) :
    V m c main_v24 = mskK (m ((c : Thread nD τ).loc main_arg1)) (m ((c : Thread nD τ).loc main_arg5)) := by
  dsimp only [Gen.V, Gen.V0]
  simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
  after_results_simp
  rfl

/-- The program's result after the region's tail, over the array the region left and the two gathered tables. -/
theorem tail_result (c : Dev nD) :
    Pipeline.afterTail₀ cfgs (dats m) 0 (V0 m) [hostOps1, hostOps1_1] c main_v43
      = bceMeanK ((dats m 0 c).arrAt 3 cfg0.N) (V m c main_v17) (V m c main_v24) := by
  -- the region's output array holds what the region left in it
  have h28 : Pipeline.withArrays (cfgs 0).spec c (V0 m c) (fun w => (dats m 0 c).arrAt w (cfgs 0).N) (Proc.devRef .tc main_v28)
      = (dats m 0 c).arrAt 3 cfg0.N :=
    Pipeline.withArrays_arr spec0 launch0.win.arr_inj c _ _ 3
  -- the two gathered tables are none of the region's arrays: they are as before the region
  have h17 : Pipeline.withArrays (cfgs 0).spec c (V0 m c) (fun w => (dats m 0 c).arrAt w (cfgs 0).N) (Proc.devRef .tc main_v17)
      = V m c main_v17 :=
    Pipeline.withArrays_of_ne spec0 c (V0 m c) _ main_v17 (by exact (by decide : ∀ w, Pipeline.arrRef spec0 w ≠ main_v17))
  have h24 : Pipeline.withArrays (cfgs 0).spec c (V0 m c) (fun w => (dats m 0 c).arrAt w (cfgs 0).N) (Proc.devRef .tc main_v24)
      = V m c main_v24 :=
    Pipeline.withArrays_of_ne spec0 c (V0 m c) _ main_v24 (by exact (by decide : ∀ w, Pipeline.arrRef spec0 w ≠ main_v24))
  unfold Pipeline.afterTail₀
  simp only [Gen.hostOps1, Gen.hostOps1_1, List.flatten_cons, List.flatten_nil, List.append_nil, List.cons_append, List.nil_append]
  after_results_simp
  rw [h28, h17, h24]
  generalize (dats m 0 c).arrAt 3 cfg0.N = P
  generalize V m c main_v17 = T
  generalize V m c main_v24 = M
  rfl

end Cert.KernelIdeal.Hsm

end
-- ==== Proof.KRun.lean ====
/-
  The idealized kernel program's run, read: it terminates with its result at the masked mean of the binary
  cross-entropy of the kernel's path logits — a function of the argument arrays alone — and its arguments unchanged.
-/
import proofs.«422814_j32298154066259_1_alg».proof.Proof.Gen.KernelIdeal.Frame
import proofs.«422814_j32298154066259_1_alg».proof.Proof.Accum
import proofs.«422814_j32298154066259_1_alg».proof.Proof.HostK

noncomputable section

open Idealize.ShloMosaic Idealize.ShloMosaic.TcCoe Idealize.SL.Sem
open Idealize.ShloMosaic.ValueIdx

open Idealize.ShloMosaic.Pipeline (Dat)

namespace Cert.KernelIdeal.Hsm

open Cert.KernelIdeal Cert.KernelIdeal.Gen

variable (m : (ℓ : Loc nD τ sig) → Buf (Elt Ideal) ℓ) (ρ : Dev nD → PrngReg)

/-- The kernel program's result as a function of its arguments. -/
def resultK (a0 : FVec Ideal S2x2048x1024 .f32) (a1 : IVec S2x2048 32) (a2 : FVec Ideal S32767x1024 .f32)
    (a3 : IVec S32768x16 32) (a4 a5 : FVec Ideal S32768x16 .f32) : FVec Ideal S_ .f32 :=
  bceMeanK (pathLogits (hidK a0) (wK a2) (nodesK a1 a3)) (tgtK a1 a4) (mskK a1 a5)

/-- The value the tail computes is `resultK` of the launch contents of the arguments. -/
theorem tail_eq (c : Dev nD) :
    Pipeline.afterTail₀ cfgs (dats m) 0 (V0 m) [hostOps1, hostOps1_1] c main_v43
      = resultK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [tail_result m c, final_logits m c, V_hid m c, V_w m c, V_nodes m c, V_tgt m c, V_msk m c]
  rfl

theorem run : θ_run defs (onTc (τ := τ) (main (F := Ideal))) ⟨m, fun _ => 0, ρ⟩ (fun r => ∀ c : Dev nD,
      r.2.mem ((c.tc : Thread nD τ).loc main_v43)
        = resultK (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v43 (Pipeline.mem_restRefs_of main_v43 (by decide) (by decide))).trans (tail_eq m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Hsm

end
-- ==== Proof.RefVal.lean ====
/-
  The reference program's result, read. It is the masked mean of the binary cross-entropy of the reference's path
  logits against the gathered targets under the gathered masks; and a path logit whose slot node number is the word
  of a number q below 32767 is the logit of (token, node q): the contraction of the token's hidden row with node q's
  weight row. (Where the node number is out of that range the reference's gather yields its fill value instead.)
-/
import proofs.«422814_j32298154066259_1_alg».proof.Proof.RefRead
import Idealize.ShloMosaic.Lib.Pipeline.Value
import Idealize.ShloMosaic.Lib.ValueIdx
import Idealize.ShloMosaic.Lib.ReduceAll
import Idealize.ShloMosaic.Lib.StableHlo.Predicate
import Idealize.ShloMosaic.PureOps.Reduce
import Idealize.ShloMosaic.PureOps.Ideal.Laws

noncomputable section

open Idealize.ShloMosaic Idealize.ShloMosaic.TcCoe Idealize.SL.Sem
open Idealize.ShloMosaic.ValueIdx

namespace Cert.ReferenceIdeal.Hsm

open Cert.ReferenceIdeal Cert.ReferenceIdeal.Gen Cert.ReferenceIdeal.ReadP

variable {F : FTy → Type} [FloatOps F]

/-- The masked mean of the binary cross-entropy with logits P against targets T under mask M. -/
def bceMeanR (P T M : FVec F S4096x16 .f32) : FVec F S_ .f32 :=
  select
    (cmpf .ogt (Host.reduceAdd M (constant (F := F) S_ .f32 0x00000000#32) reducesTo_S4096x16_S_d0_1 h_S_) (constant (F := F) S_ .f32 0x00000000#32))
    (Host.divf
      (Host.reduceAdd
        (mulf (addf (subf (maximumf P (broadcastInDim S4096x16 ![] bcast_S_S4096x16 (constant (F := F) S_ .f32 0x00000000#32))) (mulf P T))
          (Host.log1p (Host.exp (Host.negf (Host.absf P))))) M)
        (constant (F := F) S_ .f32 0x00000000#32) reducesTo_S4096x16_S_d0_1 h_S_)
      (Host.reduceAdd M (constant (F := F) S_ .f32 0x00000000#32) reducesTo_S4096x16_S_d0_1 h_S_))
    (constant (F := F) S_ .f32 0x00000000#32)

/-- The reference's result is that mean of its own path logits, targets and masks. -/
theorem result_split (a0 : (⟨S2x2048x1024, .f32⟩ : BufTy).Contents (Elt F)) (a1 : (⟨S2x2048, .i32⟩ : BufTy).Contents (Elt F))
    (a2 : (⟨S32767x1024, .f32⟩ : BufTy).Contents (Elt F)) (a3 : (⟨S32768x16, .i32⟩ : BufTy).Contents (Elt F))
    (a4 a5 : (⟨S32768x16, .f32⟩ : BufTy).Contents (Elt F)) :
    val_main_v42 (F := F) a0 a1 a2 a3 a4 a5
      = bceMeanR (val_main_v27 (F := F) a0 a1 a2 a3) (val_main_v16 (F := F) a1 a4) (val_main_v23 (F := F) a1 a5) := by
  unfold bceMeanR val_main_v42 val_main_v41 val_main_v40 val_main_v39 val_main_v38 val_main_v37 val_main_v36 val_main_v35 val_main_v34 val_main_v33 val_main_v32 val_main_v31 val_main_v30 val_main_v29 val_main_v28 val_main_cst val_main_cst_8 val_main_cst_9 val_main_cst_10 val_main_cst_11
  rfl

/-! ## The in-range mask: a conjunction folded over an axis of size one -/

/-- A conjunction with the bit 1 is the other bit. -/
theorem andi_one_right : ∀ v : BitVec 1, IntOp.andi v 1#1 = v := by decide

/-- A commutative, associative fold over a one-element range has one term. -/
theorem fold_fin_one {β : Type} (op : β → β → β) [Std.Commutative op] [Std.Associative op] (b : β) (f : Fin 1 → β) :
    (Finset.univ : Finset (Fin 1)).fold op b f = op (f 0) b := by
  rw [Finset.univ_unique, Finset.fold_singleton]; rfl

/-- The conjunction over the last axis, of size one, of a [4096, 16, 1] array of bits is the array's bit. -/
theorem reduce_and_unit (x : IVec S4096x16x1 1) (r : Fin 4096) (l : Fin 16) :
    Host.reduce IntOp.andi x (constantI S_ 1 1#1) reducesTo_S4096x16x1_S4096x16_d2 h_S_ (ix2 r l) = x (ix3 r l (0 : Fin 1)) := by
  have h : S4096x16x1.Reduces [2] S4096x16 := by decide
  rw [Host.reduce_eq_fold_single IntOp.andi x _ reducesTo_S4096x16x1_S4096x16_d2 h h_S_]
  have e : h.lift (ix2 r l) (0 : Fin 1) = ix3 r l (0 : Fin 1) := funext fun c => Fin.ext (by
    match c with
    | ⟨0, _⟩ => rfl
    | ⟨1, _⟩ => rfl
    | ⟨2, _⟩ => rfl)
  refine (fold_fin_one IntOp.andi (1#1) (x ∘ h.lift (ix2 r l))).trans ?_
  show IntOp.andi (x (h.lift (ix2 r l) (0 : Fin 1))) 1#1 = _
  rw [e, andi_one_right]

/-! ## The gather along the node axis, batched over the token axis, at (token r, slot l) -/

/-- Result element (r, l) of the batched gather is the operand's row r at the column its start index names: the index
    word at (r, l, 0) read signed and clamped into [0, 32766]. -/
theorem gather_row_apply {α : Type} (x : S4096x32767.Idx → α) (idx : IVec S4096x16x1 32) (r : Fin 4096) (l : Fin 16)
    (n : Fin 32767) (hn : min (idx (ix3 r l (0 : Fin 1))).toInt.toNat 32766 = n.val) :
    Host.gather gather_S4096x32767_S4096x16x1_S4096x16_n_1_0_0_1_2_11 x idx (ix2 r l) = x (ix2 r n) := by
  unfold Host.gather
  congr 1
  funext a
  refine Fin.ext ?_
  match a with
  | ⟨0, _⟩ =>
    show gather_S4096x32767_S4096x16x1_S4096x16_n_1_0_0_1_2_11.start (ix2 r l) idx 0
      + gather_S4096x32767_S4096x16x1_S4096x16_n_1_0_0_1_2_11.batchCoord (ix2 r l) 0
      + gather_S4096x32767_S4096x16x1_S4096x16_n_1_0_0_1_2_11.offCoord (ix2 r l) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin S4096x32767.rank) ∈ gather_S4096x32767_S4096x16x1_S4096x16_n_1_0_0_1_2_11.operandBatchingDims from List.mem_singleton.mpr rfl)]
    rfl
  | ⟨1, _⟩ =>
    show gather_S4096x32767_S4096x16x1_S4096x16_n_1_0_0_1_2_11.start (ix2 r l) idx 1
      + gather_S4096x32767_S4096x16x1_S4096x16_n_1_0_0_1_2_11.batchCoord (ix2 r l) 1
      + gather_S4096x32767_S4096x16x1_S4096x16_n_1_0_0_1_2_11.offCoord (ix2 r l) 1 = n.val
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin S4096x32767.rank) ∈ gather_S4096x32767_S4096x16x1_S4096x16_n_1_0_0_1_2_11.startIndexMap from List.mem_singleton.mpr rfl)]
    have hsi : gather_S4096x32767_S4096x16x1_S4096x16_n_1_0_0_1_2_11.siIdx (ix2 r l)
        ⟨List.idxOf (1 : Fin S4096x32767.rank) gather_S4096x32767_S4096x16x1_S4096x16_n_1_0_0_1_2_11.startIndexMap,
          List.idxOf_lt_length_iff.2 (List.mem_singleton.mpr rfl)⟩ = ix3 r l (0 : Fin 1) := by
      funext b; refine Fin.ext ?_
      match b with
      | ⟨0, _⟩ => rfl
      | ⟨1, _⟩ => rfl
      | ⟨2, _⟩ => rfl
    rw [hsi]
    exact hn

/-! ## The index word at (r, l) when it is the word of a node number below 32767 -/

open Idealize.ShloMosaic.StableHlo.Predicate in
/-- The slot's index word, when it is the word of q < 32767, passes the wrap of negative indices unchanged. -/
theorem idx4_at (a1 : (⟨S2x2048, .i32⟩ : BufTy).Contents (Elt F)) (a3 : (⟨S32768x16, .i32⟩ : BufTy).Contents (Elt F))
    (r : Fin 4096) (l : Fin 16) (q : Fin 32767)
    (hq : val_main_v26 (F := F) a1 a3 (ix2 r l) = BitVec.ofNat 32 q.val) :
    val_main_call2_v4 (F := F) a1 a3 (ix2 r l) = BitVec.ofNat 32 q.val := by
  have hn : (BitVec.ofNat 32 q.val).toNat = q.val := by
    rw [BitVec.toNat_ofNat]; exact Nat.mod_eq_of_lt (by have := q.isLt; omega)
  rw [val_main_call2_v4_apply, val_main_call2_v1_apply, val_main_call2_v0_apply, val_main_call2_c_apply, hq]
  have hc : ¬ IntOp.cmpi .slt (BitVec.ofNat 32 q.val) 0#32 = 1#1 := by
    rw [slt_iff_toNat (by rw [hn]; have := q.isLt; omega) (by decide), hn]
    exact Nat.not_lt_zero _
  rw [eq_zero_of_ne_one hc, select_zero]

/-- The reshape [4096, 16] → [4096, 16, 1] reads (r, l, 0) at (r, l). -/
theorem idx5_src (r : Fin 4096) (l : Fin 16) : idx_main_call2_v5 (ix3 r l (0 : Fin 1)) = ix2 r l :=
  funext fun a => Fin.ext (by
    match a with
    | ⟨0, _⟩ => show ((r.val * 16 + l.val) * 1 + 0) / 16 = r.val; omega
    | ⟨1, _⟩ => show ((r.val * 16 + l.val) * 1 + 0) % 16 = l.val; omega)

/-- So the reshaped index word at (r, l, 0) is that word. -/
theorem idx5_at (a1 : (⟨S2x2048, .i32⟩ : BufTy).Contents (Elt F)) (a3 : (⟨S32768x16, .i32⟩ : BufTy).Contents (Elt F))
    (r : Fin 4096) (l : Fin 16) (q : Fin 32767)
    (hq : val_main_v26 (F := F) a1 a3 (ix2 r l) = BitVec.ofNat 32 q.val) :
    val_main_call2_v5 (F := F) a1 a3 (ix3 r l (0 : Fin 1)) = BitVec.ofNat 32 q.val := by
  rw [val_main_call2_v5_apply, idx5_src, idx4_at a1 a3 r l q hq]

open Idealize.ShloMosaic.StableHlo.Predicate in
/-- Such a word is in [0, 32766]: the in-range bit at (r, l, 0) is 1. -/
theorem in_range_at (a1 : (⟨S2x2048, .i32⟩ : BufTy).Contents (Elt F)) (a3 : (⟨S32768x16, .i32⟩ : BufTy).Contents (Elt F))
    (r : Fin 4096) (l : Fin 16) (q : Fin 32767)
    (hq : val_main_v26 (F := F) a1 a3 (ix2 r l) = BitVec.ofNat 32 q.val) :
    val_main_call2_v11 (F := F) a1 a3 (ix3 r l (0 : Fin 1)) = 1#1 := by
  have hn : (BitVec.ofNat 32 q.val).toNat = q.val := by
    rw [BitVec.toNat_ofNat]; exact Nat.mod_eq_of_lt (by have := q.isLt; omega)
  have hlt : (BitVec.ofNat 32 q.val).toNat < 2 ^ 31 := by rw [hn]; have := q.isLt; omega
  rw [val_main_call2_v11_apply, val_main_call2_v7_apply, val_main_call2_v10_apply, idx5_at a1 a3 r l q hq,
    val_main_call2_v6_apply, val_main_call2_c_2_apply, val_main_call2_v9_apply, val_main_call2_v8_apply,
    val_main_call2_c_1_apply]
  have h7 : IntOp.cmpi .sge (BitVec.ofNat 32 q.val) 0#32 = 1#1 :=
    (sge_iff_toNat hlt (by decide)).2 (Nat.zero_le _)
  have h10 : IntOp.cmpi .sle (BitVec.ofNat 32 q.val) 32766#32 = 1#1 :=
    (sle_iff_toNat hlt (by decide)).2 (by rw [hn]; have := q.isLt; show q.val ≤ 32766; omega)
  rw [h7, h10]; rfl

/-! ## The path logit -/

open Idealize.ShloMosaic.StableHlo.Predicate in
/-- A path logit whose slot node number is the word of q < 32767 is the logit of (token r, node q). -/
theorem logits_at (a0 : (⟨S2x2048x1024, .f32⟩ : BufTy).Contents (Elt Ideal)) (a1 : (⟨S2x2048, .i32⟩ : BufTy).Contents (Elt Ideal))
    (a2 : (⟨S32767x1024, .f32⟩ : BufTy).Contents (Elt Ideal)) (a3 : (⟨S32768x16, .i32⟩ : BufTy).Contents (Elt Ideal))
    (r : Fin 4096) (l : Fin 16) (q : Fin 32767)
    (hq : val_main_v26 (F := Ideal) a1 a3 (ix2 r l) = BitVec.ofNat 32 q.val) :
    val_main_v27 (F := Ideal) a0 a1 a2 a3 (ix2 r l)
      = ∑ k : Fin 1024, val_main_v0 (F := Ideal) a0 (ix2 r k) * a2 (ix2 q k) := by
  rw [val_main_v27_apply]
  have hmask : val_main_call2_v12 (F := Ideal) a1 a3 (ix2 r l) = 1#1 := by
    unfold val_main_call2_v12 val_main_call2_c_3
    rw [reduce_and_unit]
    exact in_range_at a1 a3 r l q hq
  rw [hmask, select_one]
  unfold val_main_call2_v13
  have hn : min (val_main_call2_v5 (F := Ideal) a1 a3 (ix3 r l (0 : Fin 1))).toInt.toNat 32766 = q.val := by
    rw [idx5_at a1 a3 r l q hq, toInt_ofNat_small q.val (by have := q.isLt; omega)]
    have := q.isLt; omega
  rw [gather_row_apply _ _ r l q hn, val_main_v25_apply]
  refine Finset.sum_congr rfl fun k _ => ?_
  rw [val_main_v24_apply]
  have el : lidx_main_v25 (ix2 r q) k = ix2 r k :=
    funext fun a => Fin.ext (by match a with | ⟨0, _⟩ => rfl | ⟨1, _⟩ => rfl)
  have er : idx_main_v24 (ridx_main_v25 (ix2 r q) k) = ix2 q k :=
    funext fun a => Fin.ext (by match a with | ⟨0, _⟩ => rfl | ⟨1, _⟩ => rfl)
  rw [el, er]

end Cert.ReferenceIdeal.Hsm

end
-- ==== Proof.OneHot.lean ====
/-
  A one-hot selection over a tiled range. The node numbers 0 … 32767 are laid out as 32 tiles of 1024 lanes. Summing,
  over all tiles j and lanes n, the value f (1024 j + n) where a given 32-bit word equals the word of 1024 j + n, and
  zero elsewhere, gives f at the word's number — exactly one (tile, lane) pair matches.
-/
import Mathlib.Algebra.BigOperators.Fin
import Mathlib.Algebra.BigOperators.Group.Finset.Basic

namespace Cert.OneHot

/-- Two numbers below 32768 have the same 32-bit word only when they are equal (neither wraps modulo 2 ^ 32). -/
theorem word_eq_iff (a b : Nat) (ha : a < 32768) (hb : b < 32768) :
    BitVec.ofNat 32 a = BitVec.ofNat 32 b ↔ a = b := by
  constructor
  · intro h
    have h2 := congrArg BitVec.toNat h
    rw [BitVec.toNat_ofNat, BitVec.toNat_ofNat] at h2
    omega
  · intro h
    rw [h]

/-- Exactly one tile and lane carry the number q. -/
theorem tiled_onehot {M : Type*} [AddCommMonoid M] (f : Fin 32768 → M) (q : Fin 32768) :
    (∑ j : Fin 32, ∑ n : Fin 1024,
      if BitVec.ofNat 32 q.val = BitVec.ofNat 32 (j.val * 1024 + n.val)
        then f ⟨j.val * 1024 + n.val, by have := j.isLt; have := n.isLt; omega⟩ else 0) = f q := by
  have hq := q.isLt
  -- the condition on words is the condition on numbers
  have key : ∀ (j : Fin 32) (n : Fin 1024),
      (BitVec.ofNat 32 q.val = BitVec.ofNat 32 (j.val * 1024 + n.val)) ↔ q.val = j.val * 1024 + n.val := by
    intro j n
    have hj := j.isLt
    have hn := n.isLt
    exact word_eq_iff _ _ hq (by omega)
  -- the one matching pair: tile q / 1024, lane q % 1024
  have hj0 : q.val / 1024 < 32 := by omega
  have hn0 : q.val % 1024 < 1024 := by omega
  have e : q.val = q.val / 1024 * 1024 + q.val % 1024 := by omega
  rw [Finset.sum_eq_single (⟨q.val / 1024, hj0⟩ : Fin 32)]
  · rw [Finset.sum_eq_single (⟨q.val % 1024, hn0⟩ : Fin 1024)]
    · rw [if_pos ((key ⟨q.val / 1024, hj0⟩ ⟨q.val % 1024, hn0⟩).2 e)]
      exact congrArg f (Fin.ext e.symm)
    · -- in the matching tile every other lane misses
      intro n _ hn
      refine if_neg ?_
      intro h
      have h' : q.val = q.val / 1024 * 1024 + n.val := (key ⟨q.val / 1024, hj0⟩ n).1 h
      apply hn
      apply Fin.ext
      show n.val = q.val % 1024
      have := n.isLt
      omega
    · intro h
      exact absurd (Finset.mem_univ _) h
  · -- every other tile misses in every lane
    intro j _ hj
    apply Finset.sum_eq_zero
    intro n _
    refine if_neg ?_
    intro h
    have h' : q.val = j.val * 1024 + n.val := (key j n).1 h
    apply hj
    apply Fin.ext
    show j.val = q.val / 1024
    have := n.isLt
    omega
  · intro h
    exact absurd (Finset.mem_univ _) h

end Cert.OneHot
-- ==== Proof.PreDecode.lean ====
/-
  What the precondition says of the table of path node numbers: every entry is at most 32766 (as a signed number),
  so every entry indexes the 32767 logits of a token in range once negatives (padding) are raised to 0.
-/
import proofs.«422814_j32298154066259_1_alg».proof.Pre_finite_inputs
import proofs.«422814_j32298154066259_1_alg».proof.Proof.Gen.Pre_finite_inputs
import Idealize.ShloMosaic.Lib.ReduceAll
import Idealize.ShloMosaic.Lib.Affine
import Idealize.ShloMosaic.Lib.ValueIdx

noncomputable section

open Idealize.ShloMosaic

namespace Cert.Pre_finite_inputs.Hsm

open Cert.Pre_finite_inputs

variable {F : FTy → Type} [FloatOps F]

/-- Under the precondition every path node number is at most 32766. -/
theorem nodes_le (a0 : FVec F S2x2048x1024 .f32) (a1 : IVec S2x2048 32) (a2 : FVec F S32767x1024 .f32)
    (a3 : IVec S32768x16 32) (a4 a5 : FVec F S32768x16 .f32)
    (h : fn (F := F) a0 a1 a2 a3 a4 a5 = fun _ => 1#1) (z : S32768x16.Idx) : (a3 z).toInt ≤ 32766 := by
  -- the predicate's one word is a conjunction whose last conjunct is "all entries ≤ 32766"
  have h0 := congrFun h ValueIdx.ix0
  unfold fn fn_part1 at h0
  have h1 := (IntOp.andi_eq_one.1 h0).2
  -- a conjunction over all entries that is 1 is 1 at the entry z
  haveI : Subsingleton S_.Idx := ⟨fun a b => funext fun d => d.elim0⟩
  have h2 := Host.reduce_andi_all _ _ _ _ _ h1 z
  -- at z the compared words are the entry and the constant 32766
  have h3 : IntOp.cmpi .sle (a3 z) 32766#32 = 1#1 := h2
  have h4 := IntOp.cmpi_sle.1 h3
  have e : (32766#32 : BitVec 32).toInt = 32766 := by decide
  rw [e] at h4
  exact h4

/-- A word at most 32766, with negatives raised to 0, is the word of a number below 32767. -/
theorem raised_lt (x : BitVec 32) (hx : x.toInt ≤ 32766) : ∃ q : Fin 32767, IntOp.maxsi 0#32 x = BitVec.ofNat 32 q.val := by
  unfold IntOp.maxsi
  by_cases hneg : x.toInt < 0
  · -- a negative word is raised to 0
    refine ⟨⟨0, by decide⟩, ?_⟩
    have hs : x.slt 0#32 = true := by
      rw [BitVec.slt_iff_toInt_lt]
      exact hneg
    rw [if_pos hs]
  · -- a nonnegative word is kept, and its signed value is its unsigned value
    have hs : ¬ (x.slt 0#32 = true) := by
      rw [BitVec.slt_iff_toInt_lt]
      exact hneg
    rw [if_neg hs]
    have hx2 := x.isLt
    have hcond := BitVec.toInt_eq_toNat_cond x
    have hlt : x.toNat < 32767 := by
      by_cases c : 2 * x.toNat < 2 ^ 32
      · rw [if_pos c] at hcond
        omega
      · rw [if_neg c] at hcond
        omega
    refine ⟨⟨x.toNat, hlt⟩, ?_⟩
    apply BitVec.eq_of_toNat_eq
    rw [BitVec.toNat_ofNat]
    show x.toNat = x.toNat % 2 ^ 32
    omega

end Cert.Pre_finite_inputs.Hsm

end
-- ==== Proof.Bridge.lean ====
/-
  The two programs compute one function of the arguments when every path node number is at most 32766.
  Both apply the same masked mean of the binary cross-entropy to the same gathered targets and masks; the path
  logits agree entry by entry: a slot's node number, negatives raised to 0, is the word of some q < 32767, the
  kernel's one-hot sum over the 32 × 1024 padded node columns keeps exactly the logit of column q, the padded weight
  row q is the weight row q, and the reference's gather at q, in range, reads the same contraction.
-/
import proofs.«422814_j32298154066259_1_alg».proof.Proof.KRun
import proofs.«422814_j32298154066259_1_alg».proof.Proof.RefVal
import proofs.«422814_j32298154066259_1_alg».proof.Proof.OneHot
import proofs.«422814_j32298154066259_1_alg».proof.Proof.PreDecode
import Idealize.ShloMosaic.Lib.KernelVsHost

noncomputable section

open Idealize.ShloMosaic Idealize.ShloMosaic.TcCoe Idealize.SL.Sem
open Idealize.ShloMosaic.ValueIdx

namespace Cert.Proof.Hsm

open Cert.KernelIdeal.Hsm Cert.ReferenceIdeal.Hsm

/-- A token's slot node number, negatives raised to 0, is the word of a number below 32767. -/
theorem nodes_word (a1 : IVec Cert.KernelIdeal.S2x2048 32) (a3 : IVec Cert.KernelIdeal.S32768x16 32)
    (hle : ∀ z : Cert.KernelIdeal.S32768x16.Idx, (a3 z).toInt ≤ 32766) (r : Fin 4096) (l : Fin 16) :
    ∃ q : Fin 32767, nodesK a1 a3 (ix2 r l) = BitVec.ofNat 32 q.val := by
  have e : nodesK a1 a3 (ix2 r l)
      = IntOp.maxsi 0#32 (a3 (Cert.KernelIdeal.gather_S32768x16_S4096x1_S4096x16_1_0_n_n_0_1_116.operandIdx (ix2 r l) (tokRowK a1))) := rfl
  rw [e]
  exact Cert.Pre_finite_inputs.Hsm.raised_lt _ (hle _)

/-- The kernel's array of path logits is the reference's. -/
theorem logits_eq (a0 : FVec Ideal Cert.KernelIdeal.S2x2048x1024 .f32) (a1 : IVec Cert.KernelIdeal.S2x2048 32)
    (a2 : FVec Ideal Cert.KernelIdeal.S32767x1024 .f32) (a3 : IVec Cert.KernelIdeal.S32768x16 32)
    (hle : ∀ z : Cert.KernelIdeal.S32768x16.Idx, (a3 z).toInt ≤ 32766) :
    pathLogits (hidK a0) (wK a2) (nodesK a1 a3) = Cert.ReferenceIdeal.ReadP.val_main_v27 (F := Ideal) a0 a1 a2 a3 := by
  funext y
  obtain ⟨r, l, rfl⟩ : ∃ (r : Fin 4096) (l : Fin 16), y = ix2 r l := ⟨y 0, y 1, eq_ix2 y⟩
  obtain ⟨q, hq⟩ := nodes_word a1 a3 hle r l
  have hq' : Cert.ReferenceIdeal.ReadP.val_main_v26 (F := Ideal) a1 a3 (ix2 r l) = BitVec.ofNat 32 q.val := hq
  rw [logits_at a0 a1 a2 a3 r l q hq']
  have hcol := Cert.OneHot.tiled_onehot
    (fun q' : Fin 32768 => ∑ k : Fin 1024, hidK a0 (ix2 r k) * wK a2 (ix2 q' k)) ⟨q.val, by have := q.isLt; omega⟩
  show (∑ j : Fin 32, ∑ n : Fin 1024,
      if nodesK a1 a3 (ix2 r l) = BitVec.ofNat 32 (j.val * 1024 + n.val) then
        ∑ k : Fin 1024, hidK a0 (ix2 r k) * wK a2 (ix2 (⟨j.val * 1024 + n.val, _⟩ : Fin 32768) k) else 0) = _
  rw [hq]
  refine hcol.trans ?_
  refine Finset.sum_congr rfl fun k _ => ?_
  congr 1
  exact pad_apply_of_inside ![0, 0] ![1, 0] ![0, 0] a2
    (sitofp (F := Ideal) .f32 (constantI Cert.KernelIdeal.S_ 32 0#32))
    Cert.KernelIdeal.Gen.pads_S32767x1024_S32768x1024_010_000 Cert.KernelIdeal.Gen.h_S_
    (ix2 (⟨q.val, by have := q.isLt; omega⟩ : Fin 32768) k) (ix2 q k)
    (fun a => match a with
      | ⟨0, _⟩ => by show q.val = 0 + q.val * (0 + 1); omega
      | ⟨1, _⟩ => by show k.val = 0 + k.val * (0 + 1); omega)

/-- The two programs' results are one function of the arguments. -/
theorem result_eq (a0 : FVec Ideal Cert.KernelIdeal.S2x2048x1024 .f32) (a1 : IVec Cert.KernelIdeal.S2x2048 32)
    (a2 : FVec Ideal Cert.KernelIdeal.S32767x1024 .f32) (a3 : IVec Cert.KernelIdeal.S32768x16 32)
    (a4 a5 : FVec Ideal Cert.KernelIdeal.S32768x16 .f32)
    (hpre : Cert.Pre_finite_inputs.fn (F := Ideal) a0 a1 a2 a3 a4 a5 = fun _ => 1#1) :
    resultK a0 a1 a2 a3 a4 a5 = Cert.ReferenceIdeal.ReadP.val_main_v42 (F := Ideal) a0 a1 a2 a3 a4 a5 := by
  rw [result_split]
  unfold resultK
  rw [logits_eq a0 a1 a2 a3 (Cert.Pre_finite_inputs.Hsm.nodes_le a0 a1 a2 a3 a4 a5 hpre)]
  rfl

end Cert.Proof.Hsm

end
-- ==== Proof.lean ====
/-
  The certificate of the hierarchical-softmax path loss: the kernel (one-hot masked lane sums of token × node logits,
  accumulated over 32 column tiles of the padded node matrix) against the reference (all logits by one matrix
  product, the path logits gathered by node number), both followed by the same masked mean of the binary
  cross-entropy with logits — equal over the extended reals whenever every path node number is at most 32766, the
  range in which the reference's gather is defined.

  The kernel's value: at (token, slot) the output block gains, per column tile, the sum over the tile's lanes of the
  logit where the slot's node number is the lane's; over all tiles exactly one lane matches, so the entry is the
  logit of (token, node). The padded weight row is never selected in range. The reference reads the same logit
  through its gather. The host tail and the gathered targets and masks are the same operations in both programs.
  The frames of the two kernel programs are the generated ones; the reference's frame is its run with the result
  dropped; the idealization rewrote nothing.
-/
import proofs.«422814_j32298154066259_1_alg».proof.Defs
import proofs.«422814_j32298154066259_1_alg».proof.Proof.Gen.Kernel
import proofs.«422814_j32298154066259_1_alg».proof.Proof.Gen.Kernel.Skeleton
import proofs.«422814_j32298154066259_1_alg».proof.Proof.Gen.Kernel.Launch
import proofs.«422814_j32298154066259_1_alg».proof.Proof.Gen.Kernel.Points
import proofs.«422814_j32298154066259_1_alg».proof.Proof.Gen.Kernel.Frame
import proofs.«422814_j32298154066259_1_alg».proof.Proof.Gen.KernelIdeal
import proofs.«422814_j32298154066259_1_alg».proof.Proof.Gen.KernelIdeal.Skeleton
import proofs.«422814_j32298154066259_1_alg».proof.Proof.Gen.KernelIdeal.Launch
import proofs.«422814_j32298154066259_1_alg».proof.Proof.Gen.KernelIdeal.Points
import proofs.«422814_j32298154066259_1_alg».proof.Proof.Gen.KernelIdeal.Frame
import proofs.«422814_j32298154066259_1_alg».proof.Proof.Gen.ReferenceIdeal
import proofs.«422814_j32298154066259_1_alg».proof.Proof.Gen.Pre_finite_inputs
import proofs.«422814_j32298154066259_1_alg».proof.Proof.RefRun
import proofs.«422814_j32298154066259_1_alg».proof.Proof.RefRead
import proofs.«422814_j32298154066259_1_alg».proof.Proof.KRun
import proofs.«422814_j32298154066259_1_alg».proof.Proof.Bridge
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments, under the precondition, both idealized programs end with the same
    result: the kernel's result function of the arguments is the reference's result stage. -/
theorem algebraic : Cert.algebraic_KernelIdeal_ReferenceIdeal := by
  intro m ρ m' ρ' hpre hagree
  refine ⟨fun c => Cert.KernelIdeal.Hsm.resultK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.KernelIdeal.Hsm.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v42_eq, (hagree c).1, (hagree c).2.1, (hagree c).2.2.1, (hagree c).2.2.2.1,
    (hagree c).2.2.2.2.1, (hagree c).2.2.2.2.2]
  exact (Cert.Proof.Hsm.result_eq _ _ _ _ _ _ (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
